-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x32 .f32) (main_arg15 : FVec F S32 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg14
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg9 : FVec F S32 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x32 .f32) (main_arg9 : FVec F S32 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x32 .f32) (main_arg1 : FVec F S1600000x32 .f32) (main_arg2 : IVec S1600000 32) (main_arg3 : IVec S1600000 32) (main_arg4 : FVec F S96x64 .f32) (main_arg5 : FVec F S64 .f32) (main_arg6 : FVec F S64x64 .f32) (main_arg7 : FVec F S64 .f32) (main_arg8 : FVec F S64x32 .f32) (main_arg9 : FVec F S32 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S96x64 .f32 := Host.absf main_arg4
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x32 : Shape := ⟨2, ![100000, 32]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩
abbrev S1600000x1 : Shape := ⟨2, ![1600000, 1]⟩
abbrev S1600000x96 : Shape := ⟨2, ![1600000, 96]⟩
abbrev S1x64 : Shape := ⟨2, ![1, 64]⟩
abbrev S1x32 : Shape := ⟨2, ![1, 32]⟩
abbrev S5000x96 : Shape := ⟨2, ![5000, 96]⟩
abbrev S5000x32 : Shape := ⟨2, ![5000, 32]⟩
abbrev S5000x64 : Shape := ⟨2, ![5000, 64]⟩
abbrev S100000x64 : Shape := ⟨2, ![100000, 64]⟩

abbrev nBuf : Space → Nat
  | .hbm => 48
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S96x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x32, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x32, .f32⟩
  | .hbm, ⟨34, _⟩ => ⟨S1600000x96, .f32⟩
  | .hbm, ⟨35, _⟩ => ⟨S1x64, .f32⟩
  | .hbm, ⟨36, _⟩ => ⟨S1x64, .f32⟩
  | .hbm, ⟨37, _⟩ => ⟨S1x32, .f32⟩
  | .hbm, ⟨38, _⟩ => ⟨S1600000x32, .f32⟩
  | .hbm, ⟨39, _⟩ => ⟨S_, .f32⟩
  | .hbm, ⟨40, _⟩ => ⟨S100000x32, .f32⟩
  | .hbm, ⟨41, _⟩ => ⟨S1600000x1, .i32⟩
  | .hbm, ⟨42, _⟩ => ⟨S100000x32, .f32⟩
  | .hbm, ⟨43, _⟩ => ⟨S100000x64, .f32⟩
  | .hbm, ⟨44, _⟩ => ⟨S1x64, .f32⟩
  | .hbm, ⟨45, _⟩ => ⟨S1x64, .f32⟩
  | .hbm, ⟨46, _⟩ => ⟨S1x32, .f32⟩
  | .hbm, ⟨47, _⟩ => ⟨S100000x32, .f32⟩
  | .local _ .vmem, ⟨0, _⟩ => ⟨S5000x96, .f32⟩
  | .local _ .vmem, ⟨1, _⟩ => ⟨S5000x96, .f32⟩
  | .local _ .vmem, ⟨2, _⟩ => ⟨S96x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x32_S1600000x96_d1 : Shape.Concatenates [S1600000x32, S1600000x32, S1600000x32] S1600000x96 1
  shapeCasts_S64_S1x64 : S64.ShapeCasts S1x64
  shapeCasts_S32_S1x32 : S32.ShapeCasts S1x32
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  concatenates_S100000x32_S100000x32_S100000x64_d1 : Shape.Concatenates [S100000x32, S100000x32] S100000x64 1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  gather_S100000x32_S1600000x1_S1600000x32_1_0_n_n_0_1_132_wf : GatherDims.WF S100000x32 S1600000x1 S1600000x32 [1] [0] [] [0] [] 1 ![1, 32]
  dot_S5000x96_S96x64_S5000x64_1_0_0_1_n_n_wf : DotDims.WF S5000x96 S96x64 S5000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S1600000x96.size a
  hwx0_0 : ∀ i : grid0.Coords, EltTy.bits .f32 = 32 ∨ (Rect.block (s := S1600000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x64.size a ≤ S96x64.size a
  hwx0_1 : ∀ i : grid0.Coords, EltTy.bits .f32 = 32 ∨ (Rect.block (s := S96x64) S96x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x32.size a ≤ S1600000x32.size a
  hwx0_7 : ∀ i : grid0.Coords, EltTy.bits .f32 = 32 ∨ (Rect.block (s := S1600000x32) S5000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x32.size a ≤ S100000x32.size a
  hwx1_7 : ∀ i : grid1.Coords, EltTy.bits .f32 = 32 ∨ (Rect.block (s := S100000x32) S5000x32.size (cc1_transform_7 i) (hinb1_7 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v14) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S96x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S5000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S5000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩
abbrev S1600000x1 : Shape := ⟨2, ![1600000, 1]⟩
abbrev S1600000x96 : Shape := ⟨2, ![1600000, 96]⟩
abbrev S1600000x64 : Shape := ⟨2, ![1600000, 64]⟩
abbrev S1x64 : Shape := ⟨2, ![1, 64]⟩
abbrev S1x32 : Shape := ⟨2, ![1, 32]⟩
abbrev S100000x64 : Shape := ⟨2, ![100000, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S96x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x32, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x32, .f32⟩
  | .hbm, ⟨34, _⟩ => ⟨S1600000x96, .f32⟩
  | .hbm, ⟨35, _⟩ => ⟨S1600000x64, .f32⟩
  | .hbm, ⟨36, _⟩ => ⟨S1x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S1600000x64, .f32⟩
  | .hbm, ⟨41, _⟩ => ⟨S1600000x64, .f32⟩
  | .hbm, ⟨42, _⟩ => ⟨S1600000x64, .f32⟩
  | .hbm, ⟨43, _⟩ => ⟨S1x64, .f32⟩
  | .hbm, ⟨44, _⟩ => ⟨S1600000x64, .f32⟩
  | .hbm, ⟨45, _⟩ => ⟨S1600000x64, .f32⟩
  | .hbm, ⟨46, _⟩ => ⟨S_, .f32⟩
  | .hbm, ⟨47, _⟩ => ⟨S1600000x64, .f32⟩
  | .hbm, ⟨48, _⟩ => ⟨S1600000x64, .f32⟩
  | .hbm, ⟨49, _⟩ => ⟨S1600000x32, .f32⟩
  | .hbm, ⟨50, _⟩ => ⟨S1x32, .f32⟩
  | .hbm, ⟨51, _⟩ => ⟨S1600000x32, .f32⟩
  | .hbm, ⟨52, _⟩ => ⟨S1600000x32, .f32⟩
  | .hbm, ⟨53, _⟩ => ⟨S_, .f32⟩
  | .hbm, ⟨54, _⟩ => ⟨S1600000x32, .f32⟩
  | .hbm, ⟨55, _⟩ => ⟨S1600000x32, .f32⟩
  | .hbm, ⟨56, _⟩ => ⟨S_, .f32⟩
  | .hbm, ⟨57, _⟩ => ⟨S100000x32, .f32⟩
  | .hbm, ⟨58, _⟩ => ⟨S1600000x1, .i32⟩
  | .hbm, ⟨59, _⟩ => ⟨S100000x32, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x32, .f32⟩
  | .hbm, ⟨76, _⟩ => ⟨S1x32, .f32⟩
  | .hbm, ⟨77, _⟩ => ⟨S100000x32, .f32⟩
  | .hbm, ⟨78, _⟩ => ⟨S100000x32, .f32⟩
  | .hbm, ⟨79, _⟩ => ⟨S_, .f32⟩
  | .hbm, ⟨80, _⟩ => ⟨S100000x32, .f32⟩
  | .hbm, ⟨81, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call2_cst : Ref sig .tc := ⟨.hbm, 53, rfl⟩
abbrev main_call2_v0 : Ref sig .tc := ⟨.hbm, 54, rfl⟩
abbrev main_v29 : Ref sig .tc := ⟨.hbm, 55, rfl⟩
abbrev main_cst : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call3_cst : Ref sig .tc := ⟨.hbm, 65, rfl⟩
abbrev main_call3_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call4_cst : Ref sig .tc := ⟨.hbm, 72, rfl⟩
abbrev main_call4_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_call5_cst : Ref sig .tc := ⟨.hbm, 79, rfl⟩
abbrev main_call5_v0 : Ref sig .tc := ⟨.hbm, 80, rfl⟩
abbrev main_v48 : Ref sig .tc := ⟨.hbm, 81, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x32_S1600000x96_d1 : Shape.Concatenates [S1600000x32, S1600000x32, S1600000x32] S1600000x96 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  concatenates_S100000x32_S100000x32_S100000x64_d1 : Shape.Concatenates [S100000x32, S100000x32] S100000x64 1
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  dot_S1600000x96_S96x64_S1600000x64_1_0_0_1_n_n_wf : DotDims.WF S1600000x96 S96x64 S1600000x64 [1] [0] [0] [1] [] []
  dot_S1600000x64_S64x64_S1600000x64_1_0_0_1_n_n_wf : DotDims.WF S1600000x64 S64x64 S1600000x64 [1] [0] [0] [1] [] []
  dot_S1600000x64_S64x32_S1600000x32_1_0_0_1_n_n_wf : DotDims.WF S1600000x64 S64x32 S1600000x32 [1] [0] [0] [1] [] []
  scatter_S100000x32_S1600000x1_S1600000x32_1_0_0_1_wf : ScatterDims.WF S100000x32 S1600000x1 S1600000x32 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x96_S96x64_S1600000x64_1_0_0_1_n_n : DotDims S1600000x96 S96x64 S1600000x64 where
  lhsContracting := [1]
  rhsContracting := [0]
  lhsNonContracting := [0]
  rhsNonContracting := [1]
  lhsBatch := []
  rhsBatch := []
  wf := dot_S1600000x96_S96x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Kernel.EdgeBody.lean ====
/-
  The edge network's pallas_call (pipeline 0 of @main) on one core, for any float family and at ANY contents `V` of the
  core's arrays when the region is entered. At grid point `t` the pipeline hands the body a block of 5000 rows of the
  region's first operand (window 0) beside the six weight and bias arrays whole (windows 1 to 6: their block index
  never moves, so they are fetched once), and the body stores one whole 5000 × 32 block of the result (window 7):
  the three-layer perceptron of those rows. Stated here: what each input window's staging buffer holds at every point
  (its block of `V`'s array, fetched there or not), what the body leaves in the output buffer (`outBlock`: its single
  store, of the body's pure arithmetic at the loaded blocks), the body's triple, and the pipeline's proof data with
  the obligation the launch asks of it at every point.
-/
import proofs.«136190_j64424509440353_1_alg».proof.Proof.Gen.Kernel.Launch
import proofs.«136190_j64424509440353_1_alg».proof.Proof.Gen.Kernel.Skeleton
import proofs.«136190_j64424509440353_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    its block index did not move since the last fetch: for any proof data over `V`'s array whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, whether the pipeline fetched it there or
    its block index did not move since the last fetch: for any proof data over `V`'s array whose body leaves the block in place. -/
theorem before_1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, whether the pipeline fetched it there or
    its block index did not move since the last fetch: for any proof data over `V`'s array whose body leaves the block in place. -/
theorem before_2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, whether the pipeline fetched it there or
    its block index did not move since the last fetch: for any proof data over `V`'s array whose body leaves the block in place. -/
theorem before_3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, whether the pipeline fetched it there or
    its block index did not move since the last fetch: for any proof data over `V`'s array whose body leaves the block in place. -/
theorem before_4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's current staging buffer holds its block at every point, whether the pipeline fetched it there or
    its block index did not move since the last fetch: for any proof data over `V`'s array whose body leaves the block in place. -/
theorem before_5_of {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's current staging buffer holds its block at every point, whether the pipeline fetched it there or
    its block index did not move since the last fetch: for any proof data over `V`'s array whose body leaves the block in place. -/
theorem before_6_of {c : Dev nD} (dat : Dat τ (Elt F) Unit ℕ (UR sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output buffer -/

abbrev whole_S5000x96 : Rect S5000x96 := Rect.unit (s := S5000x96) ![0, 0] S5000x96.size inb_S5000x96_S5000x96_0_0
abbrev whole_S96x64 : Rect S96x64 := Rect.unit (s := S96x64) ![0, 0] S96x64.size inb_S96x64_S96x64_0_0
abbrev whole_S1x64 : Rect S1x64 := Rect.unit (s := S1x64) ![0, 0] S1x64.size inb_S1x64_S1x64_0_0
abbrev whole_S64x64 : Rect S64x64 := Rect.unit (s := S64x64) ![0, 0] S64x64.size inb_S64x64_S64x64_0_0
abbrev whole_S64x32 : Rect S64x32 := Rect.unit (s := S64x32) ![0, 0] S64x32.size inb_S64x32_S64x32_0_0
abbrev whole_S1x32 : Rect S1x32 := Rect.unit (s := S1x32) ![0, 0] S1x32.size inb_S1x32_S1x32_0_0
abbrev whole_S5000x32 : Rect S5000x32 := Rect.unit (s := S5000x32) ![0, 0] S5000x32.size inb_S5000x32_S5000x32_0_0

/-- The output window's staging buffer after the body: its one store, over the whole block, of the perceptron's
    arithmetic at the seven loaded blocks. -/
def outBlock (x0 : Vec F S5000x96 .f32) (x1 : Vec F S96x64 .f32) (x2 : Vec F S1x64 .f32) (x3 : Vec F S64x64 .f32) (x4 : Vec F S1x64 .f32) (x5 : Vec F S64x32 .f32) (x6 : Vec F S1x32 .f32) : Vec F S5000x32 .f32 :=
  View.canon [⟨whole_S5000x32, k0_pay1 (View.ld x0 whole_S5000x96) (View.ld x1 whole_S96x64) (View.ld x2 whole_S1x64) (View.ld x3 whole_S64x64) (View.ld x4 whole_S1x64) (View.ld x5 whole_S64x32) (View.ld x6 whole_S1x32)⟩]

/-- The store covers the buffer. -/
theorem outCover (p0 : Vec F S5000x32 .f32) (y : S5000x32.Idx) :
    ∃ pc ∈ ([⟨whole_S5000x32, p0⟩] : List (View.Piece (Elt F) S5000x32 .f32)), y ∈ pc.1.set :=
  View.cover_of_tiled [⟨whole_S5000x32, p0⟩] S5000x32.size (by rfl) y

/-! ## The body's triple -/

set_option maxHeartbeats 4000000 in
/-- The kernel body on whole staging memrefs — the inputs' at contents `xW`, the output's at anything — runs to the
    continuation with the inputs' as they were and the output's at `outBlock` of the inputs'. (The body also loads the
    output buffer before it stores it whole; what it loads is not used.) -/
theorem sound_kernel (c : Dev nD) (E : Set ℕ) (i : grid0.Coords) (arg1 : Memref sig .tc .vmem S5000x96 .f32) (harg1 : arg1.IsWhole) (arg2 : Memref sig .tc .vmem S96x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S5000x32 .f32) (harg8 : arg8.IsWhole)
    (x0 : Vec F S5000x96 .f32) (x1 : Vec F S96x64 .f32) (x2 : Vec F S1x64 .f32) (x3 : Vec F S64x64 .f32) (x4 : Vec F S1x64 .f32) (x5 : Vec F S64x32 .f32) (x6 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outCover _)

/-! ## The pipeline's proof data -/

/-- The proof data of pipeline 0 on core `c`: the arrays as the region finds them; after the body at point `t` each
    input's buffer still at its block and the output's at `outBlock` of the seven input blocks; the invariant the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => outBlock (blockAt V c 0 t) (blockAt V c 1 t) (blockAt V c 2 t) (blockAt V c 3 t) (blockAt V c 4 t) (blockAt V c 5 t) (blockAt V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) : (dat V c).after 3 t = blockAt V c 3 t := by dsimp only [dat]
theorem after_4 (c : Dev nD) (t : Fin cfg0.N) : (dat V c).after 4 t = blockAt V c 4 t := by dsimp only [dat]
theorem after_5 (c : Dev nD) (t : Fin cfg0.N) : (dat V c).after 5 t = blockAt V c 5 t := by dsimp only [dat]
theorem after_6 (c : Dev nD) (t : Fin cfg0.N) : (dat V c).after 6 t = blockAt V c 6 t := by dsimp only [dat]
theorem after_7 (c : Dev nD) (t : Fin cfg0.N) : (dat V c).after 7 t = outBlock (blockAt V c 0 t) (blockAt V c 1 t) (blockAt V c 2 t) (blockAt V c 3 t) (blockAt V c 4 t) (blockAt V c 5 t) (blockAt V c 6 t) := by dsimp only [dat]

theorem before_0 (c : Dev nD) (t : Fin cfg0.N) (d) : (dat V c).before 0 t d = blockAt V c 0 t :=
  before_0_of V (dat V c) (A_eq V c 0) (after_0 V c) t d
theorem before_1 (c : Dev nD) (t : Fin cfg0.N) (d) : (dat V c).before 1 t d = blockAt V c 1 t :=
  before_1_of V (dat V c) (A_eq V c 1) (after_1 V c) t d
theorem before_2 (c : Dev nD) (t : Fin cfg0.N) (d) : (dat V c).before 2 t d = blockAt V c 2 t :=
  before_2_of V (dat V c) (A_eq V c 2) (after_2 V c) t d
theorem before_3 (c : Dev nD) (t : Fin cfg0.N) (d) : (dat V c).before 3 t d = blockAt V c 3 t :=
  before_3_of V (dat V c) (A_eq V c 3) (after_3 V c) t d
theorem before_4 (c : Dev nD) (t : Fin cfg0.N) (d) : (dat V c).before 4 t d = blockAt V c 4 t :=
  before_4_of V (dat V c) (A_eq V c 4) (after_4 V c) t d
theorem before_5 (c : Dev nD) (t : Fin cfg0.N) (d) : (dat V c).before 5 t d = blockAt V c 5 t :=
  before_5_of V (dat V c) (A_eq V c 5) (after_5 V c) t d
theorem before_6 (c : Dev nD) (t : Fin cfg0.N) (d) : (dat V c).before 6 t d = blockAt V c 6 t :=
  before_6_of V (dat V c) (A_eq V c 6) (after_6 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Edge

end
-- ==== Proof.Kernel.NodeBody.lean ====
/-
  The node network's pallas_call (pipeline 1 of @main) on one core, for any float family and at ANY contents `V` of the
  core's arrays when the region is entered. At grid point `t` the pipeline hands the body a block of 5000 rows of the
  region's first operand (window 0) beside the six weight and bias arrays whole (windows 1 to 6: their block index
  never moves, so they are fetched once), and the body stores one whole 5000 × 32 block of the result (window 7):
  the three-layer perceptron of those rows. Stated here: what each input window's staging buffer holds at every point
  (its block of `V`'s array, fetched there or not), what the body leaves in the output buffer (`outBlock`: its single
  store, of the body's pure arithmetic at the loaded blocks), the body's triple, and the pipeline's proof data with
  the obligation the launch asks of it at every point.
-/
import proofs.«136190_j64424509440353_1_alg».proof.Proof.Gen.Kernel.Launch
import proofs.«136190_j64424509440353_1_alg».proof.Proof.Gen.Kernel.Skeleton
import proofs.«136190_j64424509440353_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    its block index did not move since the last fetch: for any proof data over `V`'s array whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, whether the pipeline fetched it there or
    its block index did not move since the last fetch: for any proof data over `V`'s array whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, whether the pipeline fetched it there or
    its block index did not move since the last fetch: for any proof data over `V`'s array whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, whether the pipeline fetched it there or
    its block index did not move since the last fetch: for any proof data over `V`'s array whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, whether the pipeline fetched it there or
    its block index did not move since the last fetch: for any proof data over `V`'s array whose body leaves the block in place. -/
theorem before_4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's current staging buffer holds its block at every point, whether the pipeline fetched it there or
    its block index did not move since the last fetch: for any proof data over `V`'s array whose body leaves the block in place. -/
theorem before_5_of {c : Dev nD} (dat : Dat τ (Elt F) Unit ℕ (UR sig nD τ) ℕ cfg1 c) (hA : dat.A 5 = V c (Pipeline.arrRef spec1 5))
    (hafter : ∀ t, dat.after 5 t = blockAt V c 5 t) (t : Fin cfg1.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's current staging buffer holds its block at every point, whether the pipeline fetched it there or
    its block index did not move since the last fetch: for any proof data over `V`'s array whose body leaves the block in place. -/
theorem before_6_of {c : Dev nD} (dat : Dat τ (Elt F) Unit ℕ (UR sig nD τ) ℕ cfg1 c) (hA : dat.A 6 = V c (Pipeline.arrRef spec1 6))
    (hafter : ∀ t, dat.after 6 t = blockAt V c 6 t) (t : Fin cfg1.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output buffer -/

abbrev whole_S5000x64 : Rect S5000x64 := Rect.unit (s := S5000x64) ![0, 0] S5000x64.size inb_S5000x64_S5000x64_0_0
abbrev whole_S1x64 : Rect S1x64 := Rect.unit (s := S1x64) ![0, 0] S1x64.size inb_S1x64_S1x64_0_0
abbrev whole_S64x64 : Rect S64x64 := Rect.unit (s := S64x64) ![0, 0] S64x64.size inb_S64x64_S64x64_0_0
abbrev whole_S64x32 : Rect S64x32 := Rect.unit (s := S64x32) ![0, 0] S64x32.size inb_S64x32_S64x32_0_0
abbrev whole_S1x32 : Rect S1x32 := Rect.unit (s := S1x32) ![0, 0] S1x32.size inb_S1x32_S1x32_0_0
abbrev whole_S5000x32 : Rect S5000x32 := Rect.unit (s := S5000x32) ![0, 0] S5000x32.size inb_S5000x32_S5000x32_0_0

/-- The output window's staging buffer after the body: its one store, over the whole block, of the perceptron's
    arithmetic at the seven loaded blocks. -/
def outBlock (x0 : Vec F S5000x64 .f32) (x1 : Vec F S64x64 .f32) (x2 : Vec F S1x64 .f32) (x3 : Vec F S64x64 .f32) (x4 : Vec F S1x64 .f32) (x5 : Vec F S64x32 .f32) (x6 : Vec F S1x32 .f32) : Vec F S5000x32 .f32 :=
  View.canon [⟨whole_S5000x32, k1_pay1 (View.ld x0 whole_S5000x64) (View.ld x1 whole_S64x64) (View.ld x2 whole_S1x64) (View.ld x3 whole_S64x64) (View.ld x4 whole_S1x64) (View.ld x5 whole_S64x32) (View.ld x6 whole_S1x32)⟩]

/-- The store covers the buffer. -/
theorem outCover (p0 : Vec F S5000x32 .f32) (y : S5000x32.Idx) :
    ∃ pc ∈ ([⟨whole_S5000x32, p0⟩] : List (View.Piece (Elt F) S5000x32 .f32)), y ∈ pc.1.set :=
  View.cover_of_tiled [⟨whole_S5000x32, p0⟩] S5000x32.size (by rfl) y

/-! ## The body's triple -/

set_option maxHeartbeats 4000000 in
/-- The kernel body on whole staging memrefs — the inputs' at contents `xW`, the output's at anything — runs to the
    continuation with the inputs' as they were and the output's at `outBlock` of the inputs'. (The body also loads the
    output buffer before it stores it whole; what it loads is not used.) -/
theorem sound_kernel (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S5000x32 .f32) (harg8 : arg8.IsWhole)
    (x0 : Vec F S5000x64 .f32) (x1 : Vec F S64x64 .f32) (x2 : Vec F S1x64 .f32) (x3 : Vec F S64x64 .f32) (x4 : Vec F S1x64 .f32) (x5 : Vec F S64x32 .f32) (x6 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outCover _)

/-! ## The pipeline's proof data -/

/-- The proof data of pipeline 1 on core `c`: the arrays as the region finds them; after the body at point `t` each
    input's buffer still at its block and the output's at `outBlock` of the seven input blocks; the invariant the
    scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => outBlock (blockAt V c 0 t) (blockAt V c 1 t) (blockAt V c 2 t) (blockAt V c 3 t) (blockAt V c 4 t) (blockAt V c 5 t) (blockAt V c 6 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) : (dat V c).after 3 t = blockAt V c 3 t := by dsimp only [dat]
theorem after_4 (c : Dev nD) (t : Fin cfg1.N) : (dat V c).after 4 t = blockAt V c 4 t := by dsimp only [dat]
theorem after_5 (c : Dev nD) (t : Fin cfg1.N) : (dat V c).after 5 t = blockAt V c 5 t := by dsimp only [dat]
theorem after_6 (c : Dev nD) (t : Fin cfg1.N) : (dat V c).after 6 t = blockAt V c 6 t := by dsimp only [dat]
theorem after_7 (c : Dev nD) (t : Fin cfg1.N) : (dat V c).after 7 t = outBlock (blockAt V c 0 t) (blockAt V c 1 t) (blockAt V c 2 t) (blockAt V c 3 t) (blockAt V c 4 t) (blockAt V c 5 t) (blockAt V c 6 t) := by dsimp only [dat]

theorem before_0 (c : Dev nD) (t : Fin cfg1.N) (d) : (dat V c).before 0 t d = blockAt V c 0 t :=
  before_0_of V (dat V c) (A_eq V c 0) (after_0 V c) t d
theorem before_1 (c : Dev nD) (t : Fin cfg1.N) (d) : (dat V c).before 1 t d = blockAt V c 1 t :=
  before_1_of V (dat V c) (A_eq V c 1) (after_1 V c) t d
theorem before_2 (c : Dev nD) (t : Fin cfg1.N) (d) : (dat V c).before 2 t d = blockAt V c 2 t :=
  before_2_of V (dat V c) (A_eq V c 2) (after_2 V c) t d
theorem before_3 (c : Dev nD) (t : Fin cfg1.N) (d) : (dat V c).before 3 t d = blockAt V c 3 t :=
  before_3_of V (dat V c) (A_eq V c 3) (after_3 V c) t d
theorem before_4 (c : Dev nD) (t : Fin cfg1.N) (d) : (dat V c).before 4 t d = blockAt V c 4 t :=
  before_4_of V (dat V c) (A_eq V c 4) (after_4 V c) t d
theorem before_5 (c : Dev nD) (t : Fin cfg1.N) (d) : (dat V c).before 5 t d = blockAt V c 5 t :=
  before_5_of V (dat V c) (A_eq V c 5) (after_5 V c) t d
theorem before_6 (c : Dev nD) (t : Fin cfg1.N) (d) : (dat V c).before 6 t d = blockAt V c 6 t :=
  before_6_of V (dat V c) (A_eq V c 6) (after_6 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- The body at any point: the inputs' memrefs hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Node

end
-- ==== Proof.Kernel.Run.lean ====
/-
  The whole run of @main on every core, for any float family: the host operations before the edge network, the edge
  network's pallas_call, the host operations between (the scatter-add of the edge messages into node buckets and the
  concatenation with the node features), and the node network's pallas_call. The contents of every unscoped buffer are
  followed through the four segments — `atLaunch`, `atEdgeEntry` (after the first host stretch), `atEdgeExit` (the
  edge call's arrays at what its write-backs leave, everything else as entered), `atNodeEntry`, `atEnd` — and the
  launch theorem for a program of several kernel regions gives: every weakly fair execution terminates, nothing
  faults, and every unscoped buffer ends at `atEnd` (`run_all`). Read at the sixteen arguments this is the frame
  (no host operation writes an argument, and a region only reads the arguments it takes); read at the two result
  buffers it names the results as the two pipelines' final output arrays.
-/
import proofs.«136190_j64424509440353_1_alg».proof.Proof.Kernel.EdgeBody
import proofs.«136190_j64424509440353_1_alg».proof.Proof.Kernel.NodeBody
import proofs.«136190_j64424509440353_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev atLaunch : Dev nD → Valuation τ sig (Elt F) := fun c b => m (c, b)
/-- After the first host stretch: the edge call's entry. -/
abbrev atEdgeEntry : Dev nD → Valuation τ sig (Elt F) := fun c => StableHlo.after hostOps0 (atLaunch m c)
/-- The same read at the TensorCore's references. -/
abbrev edgeEntry : (c : Dev nD) → (b : Ref sig .tc) → Buf (Elt F) ((c : Thread nD τ).loc b) := fun c b => atEdgeEntry m c b
/-- At the edge call's exit: its arrays at what the pipeline leaves, every other buffer as entered. -/
def atEdgeExit (c : Dev nD) : Valuation τ sig (Elt F) :=
  Pipeline.withArrays spec0 c (atEdgeEntry m c) fun w => (Edge.dat (edgeEntry m) c).arrAt w cfg0.N
theorem atEdgeExit_arr (c : Dev nD) (w : Fin cfg0.W) :
    atEdgeExit m c (Proc.devRef .tc (Pipeline.arrRef spec0 w)) = (Edge.dat (edgeEntry m) c).arrAt w cfg0.N := by
  unfold atEdgeExit; exact Pipeline.withArrays_arr spec0 launch0.win.arr_inj c _ _ w
theorem atEdgeExit_of_ne (c : Dev nD) (b : Ref sig .tc) (hb : ∀ w, Pipeline.arrRef spec0 w ≠ b) :
    atEdgeExit m c (Proc.devRef .tc b) = atEdgeEntry m c (Proc.devRef .tc b) := by
  unfold atEdgeExit; exact Pipeline.withArrays_of_ne spec0 c _ _ b hb
abbrev edgeExit : (c : Dev nD) → (b : Ref sig .tc) → Buf (Elt F) ((c : Thread nD τ).loc b) := fun c b => atEdgeExit m c b
theorem edge_arrays (c : Dev nD) (w : Fin cfg0.W) : (Edge.dat (edgeEntry m) c).arrAt w cfg0.N = edgeExit m c (Pipeline.arrRef spec0 w) :=
  (atEdgeExit_arr m c w).symm
theorem edge_rest (c : Dev nD) : ∀ b, b ∉ Finset.univ.image (Pipeline.arrRef spec0) → edgeExit m c b = edgeEntry m c b :=
  fun b hb => atEdgeExit_of_ne m c b fun w e => hb (Finset.mem_image.mpr ⟨w, Finset.mem_univ _, e⟩)

/-- After the second host stretch: the node call's entry. -/
abbrev atNodeEntry : Dev nD → Valuation τ sig (Elt F) := fun c => StableHlo.after hostOps1 (atEdgeExit m c)
abbrev nodeEntry : (c : Dev nD) → (b : Ref sig .tc) → Buf (Elt F) ((c : Thread nD τ).loc b) := fun c b => atNodeEntry m c b
/-- At the node call's exit, which is the end of @main. -/
def atEnd (c : Dev nD) : Valuation τ sig (Elt F) :=
  Pipeline.withArrays spec1 c (atNodeEntry m c) fun w => (Node.dat (nodeEntry m) c).arrAt w cfg1.N
theorem atEnd_arr (c : Dev nD) (w : Fin cfg1.W) :
    atEnd m c (Proc.devRef .tc (Pipeline.arrRef spec1 w)) = (Node.dat (nodeEntry m) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m c (Proc.devRef .tc b) = atNodeEntry m c (Proc.devRef .tc b) := by
  unfold atEnd; exact Pipeline.withArrays_of_ne spec1 c _ _ b hb
abbrev nodeExit : (c : Dev nD) → (b : Ref sig .tc) → Buf (Elt F) ((c : Thread nD τ).loc b) := fun c b => atEnd m c b
theorem node_arrays (c : Dev nD) (w : Fin cfg1.W) : (Node.dat (nodeEntry m) c).arrAt w cfg1.N = nodeExit m c (Pipeline.arrRef spec1 w) :=
  (atEnd_arr m c w).symm
theorem node_rest (c : Dev nD) : ∀ b, b ∉ Finset.univ.image (Pipeline.arrRef spec1) → nodeExit m c b = nodeEntry m c b :=
  fun b hb => atEnd_of_ne m c b fun w e => hb (Finset.mem_image.mpr ⟨w, Finset.mem_univ _, e⟩)

/-! ## What each segment leaves unchanged -/

/-- The edge call changes only its result array: an array it takes as an input window ends as entered (an input
    window is never written back), and a buffer that is no window's array is not touched. -/
theorem edge_keeps (c : Dev nD) (b : Ref sig .tc) (hb : b ≠ main_v18) :
    atEdgeExit m c (Proc.devRef .tc b) = atEdgeEntry m c (Proc.devRef .tc b) := by
  by_cases h : ∃ w, Pipeline.arrRef spec0 w = b
  · obtain ⟨w, rfl⟩ := h
    have hw : (cfg0.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, _ => rfl
      | ⟨7, _⟩, hb => exact absurd rfl hb
    exact (atEdgeExit_arr m c w).trans (((Edge.dat (edgeEntry m) c).arrAt_in w hw _).trans (Edge.A_eq (edgeEntry m) c w))
  · exact atEdgeExit_of_ne m c b fun w e => h ⟨w, e⟩

/-- The node call changes only its result array. -/
theorem node_keeps (c : Dev nD) (b : Ref sig .tc) (hb : b ≠ main_v26) :
    atEnd m c (Proc.devRef .tc b) = atNodeEntry m c (Proc.devRef .tc b) := by
  by_cases h : ∃ w, Pipeline.arrRef spec1 w = b
  · obtain ⟨w, rfl⟩ := h
    have hw : (cfg1.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, _ => rfl
      | ⟨7, _⟩, hb => exact absurd rfl hb
    exact (atEnd_arr m c w).trans (((Node.dat (nodeEntry m) c).arrAt_in w hw _).trans (Node.A_eq (nodeEntry m) c w))
  · exact atEnd_of_ne m c b fun w e => h ⟨w, e⟩

/-- A buffer that neither host stretch writes and that is neither call's result ends as launched. -/
theorem atEnd_kept (c : Dev nD) (b : Ref sig .tc) (h0 : b ∉ hostOps0_W) (h1 : b ∉ hostOps1_W) (he : b ≠ main_v18) (hn : b ≠ main_v26) :
    atEnd m c (Proc.devRef .tc b) = m ((c : Thread nD τ).loc b) :=
  (node_keeps m c b hn).trans <| (StableHlo.after_of_writes_sub hostOps1 _ hostOps1_writes h1).trans <|
    (edge_keeps m c b he).trans <| (StableHlo.after_of_writes_sub hostOps0 _ hostOps0_writes h0).trans rfl

/-- The edge result is not touched after the edge call: the second host stretch only reads it. -/
theorem atEnd_edge_result (c : Dev nD) :
    atEnd m c (Proc.devRef .tc main_v18) = (Edge.dat (edgeEntry m) c).arrAt 7 cfg0.N :=
  (node_keeps m c main_v18 (by decide)).trans <| (StableHlo.after_of_writes_sub hostOps1 _ hostOps1_writes (by decide)).trans <|
    atEdgeExit_arr m c 7

/-- The node result is the node pipeline's final output array. -/
theorem atEnd_node_result (c : Dev nD) :
    atEnd m c (Proc.devRef .tc main_v26) = (Node.dat (nodeEntry m) c).arrAt 7 cfg1.N :=
  atEnd_arr m c 7

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Edge.dat (edgeEntry m) c
  | ⟨1, _⟩ => fun c => Node.dat (nodeEntry m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at some state. -/
abbrev Tₙ (c : Dev nD) : sProp 𝕄 := iprop(StableHlo.held (c : Thread nD τ) (Pipeline.ucRefs τ sig) (atEnd m c) ∗ ∃ r, prngReg c r)

/-! ## The two pallas_calls as segments -/

set_option backward.isDefEq.respectTransparency.types false in
/-- The edge call over the thread state: entered from every unscoped buffer at `atEdgeEntry`, left at `atEdgeExit`. Its
    arrays are split out of the unscoped buffers and put back at the exit contents; the generator register goes into
    the pipeline's invariant and comes out; nothing is owed; the kernel has no semaphore of its own. -/
def edgeSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (edgeEntry m) c).loose
  hwaits := Pipeline.hwaits_of_owed_zero _ _ _ _ L lv 0 fun _ _ => rfl
  pre c := iprop(StableHlo.held (c : Thread nD τ) (Pipeline.ucRefs τ sig) (atEdgeEntry m c) ∗ R c)
  post c := iprop(StableHlo.held (c : Thread nD τ) (Pipeline.ucRefs τ sig) (atEdgeExit m c) ∗ R c)
  X c := iprop(∃ r, prngReg c r)
  Y c := iprop(∃ r, prngReg c r)
  Z c := Pipeline.unscopedRest (Ix := Unit) (Name := ℕ) (U := UR sig nD τ) (Lvl := ℕ) spec0 c (edgeEntry m c)
  hentry c := by
    rw [Pipeline.ownSems0_none]
    have hsplit := Pipeline.arrays_of_unscopedBufs (p := 0) (pcfgs (F := F)) adm (pdats m) launch0.win launch0.arr_whole c
      ((pdats m 0 c).share_full fun _ => rfl) (edgeEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (edgeEntry m c) (edgeExit m c) ((pdats m 0 c).arrAt · cfg0.N) (edge_arrays m c) (edge_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node call over the thread state: entered from every unscoped buffer at `atNodeEntry`, left at `atEnd`. -/
def nodeSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (nodeEntry m) c).loose
  hwaits := Pipeline.hwaits_of_owed_zero _ _ _ _ L lv 1 fun _ _ => rfl
  pre c := iprop(StableHlo.held (c : Thread nD τ) (Pipeline.ucRefs τ sig) (atNodeEntry m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (nodeEntry m c)
  hentry c := by
    rw [Pipeline.ownSems0_none]
    have hsplit := Pipeline.arrays_of_unscopedBufs (p := 1) (pcfgs (F := F)) adm (pdats m) launch1.win launch1.arr_whole c
      ((pdats m 1 c).share_full fun _ => rfl) (nodeEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (nodeEntry m c) (nodeExit m c) ((pdats m 1 c).arrAt · cfg1.N) (node_arrays m c) (node_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segments : List (Pipeline.Seg (pcfgs (F := F)) adm (pdats m) () defs₀ 𝒱₀ L lv) :=
  [ .host (hseg hostOps0 hostOps0_sub hostOps0_fresh (atLaunch m)),
    .region (edgeSeg m),
    .host (hseg hostOps1 hostOps1_sub hostOps1_fresh (atEdgeExit m)),
    .region (nodeSeg m) ]
/-- @main is the run of the segments. -/
theorem main_run (c : Dev nD) : main (F := F) c = Pipeline.Seg.run (segments m) := (main_chain c).trans (by chain_rfl)

set_option backward.isDefEq.respectTransparency.types false in
/-- From any memory with zero counters every weakly fair execution of @main on the TensorCores terminates, nothing
    faulting, and in every final state each unscoped buffer of each core holds `atEnd`'s contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) adm (pdats m) () cellOf_inj emb₁ defs₀ 𝒱₀ L lv m ρ main (segments m)
    (fun c Q => by rw [main_run m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h => h)

/-! ## The frame -/

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
    (h c _ (mem_uc main_arg0 (by decide))).trans (atEnd_kept m c main_arg0 (by decide) (by decide) (by decide) (by decide)),
    (h c _ (mem_uc main_arg1 (by decide))).trans (atEnd_kept m c main_arg1 (by decide) (by decide) (by decide) (by decide)),
    (h c _ (mem_uc main_arg2 (by decide))).trans (atEnd_kept m c main_arg2 (by decide) (by decide) (by decide) (by decide)),
    (h c _ (mem_uc main_arg3 (by decide))).trans (atEnd_kept m c main_arg3 (by decide) (by decide) (by decide) (by decide)),
    (h c _ (mem_uc main_arg4 (by decide))).trans (atEnd_kept m c main_arg4 (by decide) (by decide) (by decide) (by decide)),
    (h c _ (mem_uc main_arg5 (by decide))).trans (atEnd_kept m c main_arg5 (by decide) (by decide) (by decide) (by decide)),
    (h c _ (mem_uc main_arg6 (by decide))).trans (atEnd_kept m c main_arg6 (by decide) (by decide) (by decide) (by decide)),
    (h c _ (mem_uc main_arg7 (by decide))).trans (atEnd_kept m c main_arg7 (by decide) (by decide) (by decide) (by decide)),
    (h c _ (mem_uc main_arg8 (by decide))).trans (atEnd_kept m c main_arg8 (by decide) (by decide) (by decide) (by decide)),
    (h c _ (mem_uc main_arg9 (by decide))).trans (atEnd_kept m c main_arg9 (by decide) (by decide) (by decide) (by decide)),
    (h c _ (mem_uc main_arg10 (by decide))).trans (atEnd_kept m c main_arg10 (by decide) (by decide) (by decide) (by decide)),
    (h c _ (mem_uc main_arg11 (by decide))).trans (atEnd_kept m c main_arg11 (by decide) (by decide) (by decide) (by decide)),
    (h c _ (mem_uc main_arg12 (by decide))).trans (atEnd_kept m c main_arg12 (by decide) (by decide) (by decide) (by decide)),
    (h c _ (mem_uc main_arg13 (by decide))).trans (atEnd_kept m c main_arg13 (by decide) (by decide) (by decide) (by decide)),
    (h c _ (mem_uc main_arg14 (by decide))).trans (atEnd_kept m c main_arg14 (by decide) (by decide) (by decide) (by decide)),
    (h c _ (mem_uc main_arg15 (by decide))).trans (atEnd_kept m c main_arg15 (by decide) (by decide) (by decide) (by decide))⟩)
    (run_all m ρ)

end Cert.Kernel.Run

end
-- ==== Proof.KernelIdeal.EdgeBody.lean ====
/-
  The edge network's pallas_call (pipeline 0 of @main) on one core, for any float family and at ANY contents `V` of the
  core's arrays when the region is entered. At grid point `t` the pipeline hands the body a block of 5000 rows of the
  region's first operand (window 0) beside the six weight and bias arrays whole (windows 1 to 6: their block index
  never moves, so they are fetched once), and the body stores one whole 5000 × 32 block of the result (window 7):
  the three-layer perceptron of those rows. Stated here: what each input window's staging buffer holds at every point
  (its block of `V`'s array, fetched there or not), what the body leaves in the output buffer (`outBlock`: its single
  store, of the body's pure arithmetic at the loaded blocks), the body's triple, and the pipeline's proof data with
  the obligation the launch asks of it at every point.
-/
import proofs.«136190_j64424509440353_1_alg».proof.Proof.Gen.KernelIdeal.Launch
import proofs.«136190_j64424509440353_1_alg».proof.Proof.Gen.KernelIdeal.Skeleton
import proofs.«136190_j64424509440353_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    its block index did not move since the last fetch: for any proof data over `V`'s array whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, whether the pipeline fetched it there or
    its block index did not move since the last fetch: for any proof data over `V`'s array whose body leaves the block in place. -/
theorem before_1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, whether the pipeline fetched it there or
    its block index did not move since the last fetch: for any proof data over `V`'s array whose body leaves the block in place. -/
theorem before_2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, whether the pipeline fetched it there or
    its block index did not move since the last fetch: for any proof data over `V`'s array whose body leaves the block in place. -/
theorem before_3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, whether the pipeline fetched it there or
    its block index did not move since the last fetch: for any proof data over `V`'s array whose body leaves the block in place. -/
theorem before_4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's current staging buffer holds its block at every point, whether the pipeline fetched it there or
    its block index did not move since the last fetch: for any proof data over `V`'s array whose body leaves the block in place. -/
theorem before_5_of {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's current staging buffer holds its block at every point, whether the pipeline fetched it there or
    its block index did not move since the last fetch: for any proof data over `V`'s array whose body leaves the block in place. -/
theorem before_6_of {c : Dev nD} (dat : Dat τ (Elt F) Unit ℕ (UR sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output buffer -/

abbrev whole_S5000x96 : Rect S5000x96 := Rect.unit (s := S5000x96) ![0, 0] S5000x96.size inb_S5000x96_S5000x96_0_0
abbrev whole_S96x64 : Rect S96x64 := Rect.unit (s := S96x64) ![0, 0] S96x64.size inb_S96x64_S96x64_0_0
abbrev whole_S1x64 : Rect S1x64 := Rect.unit (s := S1x64) ![0, 0] S1x64.size inb_S1x64_S1x64_0_0
abbrev whole_S64x64 : Rect S64x64 := Rect.unit (s := S64x64) ![0, 0] S64x64.size inb_S64x64_S64x64_0_0
abbrev whole_S64x32 : Rect S64x32 := Rect.unit (s := S64x32) ![0, 0] S64x32.size inb_S64x32_S64x32_0_0
abbrev whole_S1x32 : Rect S1x32 := Rect.unit (s := S1x32) ![0, 0] S1x32.size inb_S1x32_S1x32_0_0
abbrev whole_S5000x32 : Rect S5000x32 := Rect.unit (s := S5000x32) ![0, 0] S5000x32.size inb_S5000x32_S5000x32_0_0

/-- The output window's staging buffer after the body: its one store, over the whole block, of the perceptron's
    arithmetic at the seven loaded blocks. -/
def outBlock (x0 : Vec F S5000x96 .f32) (x1 : Vec F S96x64 .f32) (x2 : Vec F S1x64 .f32) (x3 : Vec F S64x64 .f32) (x4 : Vec F S1x64 .f32) (x5 : Vec F S64x32 .f32) (x6 : Vec F S1x32 .f32) : Vec F S5000x32 .f32 :=
  View.canon [⟨whole_S5000x32, k0_pay1 (View.ld x0 whole_S5000x96) (View.ld x1 whole_S96x64) (View.ld x2 whole_S1x64) (View.ld x3 whole_S64x64) (View.ld x4 whole_S1x64) (View.ld x5 whole_S64x32) (View.ld x6 whole_S1x32)⟩]

/-- The store covers the buffer. -/
theorem outCover (p0 : Vec F S5000x32 .f32) (y : S5000x32.Idx) :
    ∃ pc ∈ ([⟨whole_S5000x32, p0⟩] : List (View.Piece (Elt F) S5000x32 .f32)), y ∈ pc.1.set :=
  View.cover_of_tiled [⟨whole_S5000x32, p0⟩] S5000x32.size (by rfl) y

/-! ## The body's triple -/

set_option maxHeartbeats 4000000 in
/-- The kernel body on whole staging memrefs — the inputs' at contents `xW`, the output's at anything — runs to the
    continuation with the inputs' as they were and the output's at `outBlock` of the inputs'. (The body also loads the
    output buffer before it stores it whole; what it loads is not used.) -/
theorem sound_kernel (c : Dev nD) (E : Set ℕ) (i : grid0.Coords) (arg1 : Memref sig .tc .vmem S5000x96 .f32) (harg1 : arg1.IsWhole) (arg2 : Memref sig .tc .vmem S96x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S5000x32 .f32) (harg8 : arg8.IsWhole)
    (x0 : Vec F S5000x96 .f32) (x1 : Vec F S96x64 .f32) (x2 : Vec F S1x64 .f32) (x3 : Vec F S64x64 .f32) (x4 : Vec F S1x64 .f32) (x5 : Vec F S64x32 .f32) (x6 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outCover _)

/-! ## The pipeline's proof data -/

/-- The proof data of pipeline 0 on core `c`: the arrays as the region finds them; after the body at point `t` each
    input's buffer still at its block and the output's at `outBlock` of the seven input blocks; the invariant the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => outBlock (blockAt V c 0 t) (blockAt V c 1 t) (blockAt V c 2 t) (blockAt V c 3 t) (blockAt V c 4 t) (blockAt V c 5 t) (blockAt V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) : (dat V c).after 3 t = blockAt V c 3 t := by dsimp only [dat]
theorem after_4 (c : Dev nD) (t : Fin cfg0.N) : (dat V c).after 4 t = blockAt V c 4 t := by dsimp only [dat]
theorem after_5 (c : Dev nD) (t : Fin cfg0.N) : (dat V c).after 5 t = blockAt V c 5 t := by dsimp only [dat]
theorem after_6 (c : Dev nD) (t : Fin cfg0.N) : (dat V c).after 6 t = blockAt V c 6 t := by dsimp only [dat]
theorem after_7 (c : Dev nD) (t : Fin cfg0.N) : (dat V c).after 7 t = outBlock (blockAt V c 0 t) (blockAt V c 1 t) (blockAt V c 2 t) (blockAt V c 3 t) (blockAt V c 4 t) (blockAt V c 5 t) (blockAt V c 6 t) := by dsimp only [dat]

theorem before_0 (c : Dev nD) (t : Fin cfg0.N) (d) : (dat V c).before 0 t d = blockAt V c 0 t :=
  before_0_of V (dat V c) (A_eq V c 0) (after_0 V c) t d
theorem before_1 (c : Dev nD) (t : Fin cfg0.N) (d) : (dat V c).before 1 t d = blockAt V c 1 t :=
  before_1_of V (dat V c) (A_eq V c 1) (after_1 V c) t d
theorem before_2 (c : Dev nD) (t : Fin cfg0.N) (d) : (dat V c).before 2 t d = blockAt V c 2 t :=
  before_2_of V (dat V c) (A_eq V c 2) (after_2 V c) t d
theorem before_3 (c : Dev nD) (t : Fin cfg0.N) (d) : (dat V c).before 3 t d = blockAt V c 3 t :=
  before_3_of V (dat V c) (A_eq V c 3) (after_3 V c) t d
theorem before_4 (c : Dev nD) (t : Fin cfg0.N) (d) : (dat V c).before 4 t d = blockAt V c 4 t :=
  before_4_of V (dat V c) (A_eq V c 4) (after_4 V c) t d
theorem before_5 (c : Dev nD) (t : Fin cfg0.N) (d) : (dat V c).before 5 t d = blockAt V c 5 t :=
  before_5_of V (dat V c) (A_eq V c 5) (after_5 V c) t d
theorem before_6 (c : Dev nD) (t : Fin cfg0.N) (d) : (dat V c).before 6 t d = blockAt V c 6 t :=
  before_6_of V (dat V c) (A_eq V c 6) (after_6 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Edge

end
-- ==== Proof.KernelIdeal.NodeBody.lean ====
/-
  The node network's pallas_call (pipeline 1 of @main) on one core, for any float family and at ANY contents `V` of the
  core's arrays when the region is entered. At grid point `t` the pipeline hands the body a block of 5000 rows of the
  region's first operand (window 0) beside the six weight and bias arrays whole (windows 1 to 6: their block index
  never moves, so they are fetched once), and the body stores one whole 5000 × 32 block of the result (window 7):
  the three-layer perceptron of those rows. Stated here: what each input window's staging buffer holds at every point
  (its block of `V`'s array, fetched there or not), what the body leaves in the output buffer (`outBlock`: its single
  store, of the body's pure arithmetic at the loaded blocks), the body's triple, and the pipeline's proof data with
  the obligation the launch asks of it at every point.
-/
import proofs.«136190_j64424509440353_1_alg».proof.Proof.Gen.KernelIdeal.Launch
import proofs.«136190_j64424509440353_1_alg».proof.Proof.Gen.KernelIdeal.Skeleton
import proofs.«136190_j64424509440353_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    its block index did not move since the last fetch: for any proof data over `V`'s array whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, whether the pipeline fetched it there or
    its block index did not move since the last fetch: for any proof data over `V`'s array whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, whether the pipeline fetched it there or
    its block index did not move since the last fetch: for any proof data over `V`'s array whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, whether the pipeline fetched it there or
    its block index did not move since the last fetch: for any proof data over `V`'s array whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, whether the pipeline fetched it there or
    its block index did not move since the last fetch: for any proof data over `V`'s array whose body leaves the block in place. -/
theorem before_4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's current staging buffer holds its block at every point, whether the pipeline fetched it there or
    its block index did not move since the last fetch: for any proof data over `V`'s array whose body leaves the block in place. -/
theorem before_5_of {c : Dev nD} (dat : Dat τ (Elt F) Unit ℕ (UR sig nD τ) ℕ cfg1 c) (hA : dat.A 5 = V c (Pipeline.arrRef spec1 5))
    (hafter : ∀ t, dat.after 5 t = blockAt V c 5 t) (t : Fin cfg1.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6's current staging buffer holds its block at every point, whether the pipeline fetched it there or
    its block index did not move since the last fetch: for any proof data over `V`'s array whose body leaves the block in place. -/
theorem before_6_of {c : Dev nD} (dat : Dat τ (Elt F) Unit ℕ (UR sig nD τ) ℕ cfg1 c) (hA : dat.A 6 = V c (Pipeline.arrRef spec1 6))
    (hafter : ∀ t, dat.after 6 t = blockAt V c 6 t) (t : Fin cfg1.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output buffer -/

abbrev whole_S5000x64 : Rect S5000x64 := Rect.unit (s := S5000x64) ![0, 0] S5000x64.size inb_S5000x64_S5000x64_0_0
abbrev whole_S1x64 : Rect S1x64 := Rect.unit (s := S1x64) ![0, 0] S1x64.size inb_S1x64_S1x64_0_0
abbrev whole_S64x64 : Rect S64x64 := Rect.unit (s := S64x64) ![0, 0] S64x64.size inb_S64x64_S64x64_0_0
abbrev whole_S64x32 : Rect S64x32 := Rect.unit (s := S64x32) ![0, 0] S64x32.size inb_S64x32_S64x32_0_0
abbrev whole_S1x32 : Rect S1x32 := Rect.unit (s := S1x32) ![0, 0] S1x32.size inb_S1x32_S1x32_0_0
abbrev whole_S5000x32 : Rect S5000x32 := Rect.unit (s := S5000x32) ![0, 0] S5000x32.size inb_S5000x32_S5000x32_0_0

/-- The output window's staging buffer after the body: its one store, over the whole block, of the perceptron's
    arithmetic at the seven loaded blocks. -/
def outBlock (x0 : Vec F S5000x64 .f32) (x1 : Vec F S64x64 .f32) (x2 : Vec F S1x64 .f32) (x3 : Vec F S64x64 .f32) (x4 : Vec F S1x64 .f32) (x5 : Vec F S64x32 .f32) (x6 : Vec F S1x32 .f32) : Vec F S5000x32 .f32 :=
  View.canon [⟨whole_S5000x32, k1_pay1 (View.ld x0 whole_S5000x64) (View.ld x1 whole_S64x64) (View.ld x2 whole_S1x64) (View.ld x3 whole_S64x64) (View.ld x4 whole_S1x64) (View.ld x5 whole_S64x32) (View.ld x6 whole_S1x32)⟩]

/-- The store covers the buffer. -/
theorem outCover (p0 : Vec F S5000x32 .f32) (y : S5000x32.Idx) :
    ∃ pc ∈ ([⟨whole_S5000x32, p0⟩] : List (View.Piece (Elt F) S5000x32 .f32)), y ∈ pc.1.set :=
  View.cover_of_tiled [⟨whole_S5000x32, p0⟩] S5000x32.size (by rfl) y

/-! ## The body's triple -/

set_option maxHeartbeats 4000000 in
/-- The kernel body on whole staging memrefs — the inputs' at contents `xW`, the output's at anything — runs to the
    continuation with the inputs' as they were and the output's at `outBlock` of the inputs'. (The body also loads the
    output buffer before it stores it whole; what it loads is not used.) -/
theorem sound_kernel (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S5000x32 .f32) (harg8 : arg8.IsWhole)
    (x0 : Vec F S5000x64 .f32) (x1 : Vec F S64x64 .f32) (x2 : Vec F S1x64 .f32) (x3 : Vec F S64x64 .f32) (x4 : Vec F S1x64 .f32) (x5 : Vec F S64x32 .f32) (x6 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outCover _)

/-! ## The pipeline's proof data -/

/-- The proof data of pipeline 1 on core `c`: the arrays as the region finds them; after the body at point `t` each
    input's buffer still at its block and the output's at `outBlock` of the seven input blocks; the invariant the
    scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => outBlock (blockAt V c 0 t) (blockAt V c 1 t) (blockAt V c 2 t) (blockAt V c 3 t) (blockAt V c 4 t) (blockAt V c 5 t) (blockAt V c 6 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) : (dat V c).after 3 t = blockAt V c 3 t := by dsimp only [dat]
theorem after_4 (c : Dev nD) (t : Fin cfg1.N) : (dat V c).after 4 t = blockAt V c 4 t := by dsimp only [dat]
theorem after_5 (c : Dev nD) (t : Fin cfg1.N) : (dat V c).after 5 t = blockAt V c 5 t := by dsimp only [dat]
theorem after_6 (c : Dev nD) (t : Fin cfg1.N) : (dat V c).after 6 t = blockAt V c 6 t := by dsimp only [dat]
theorem after_7 (c : Dev nD) (t : Fin cfg1.N) : (dat V c).after 7 t = outBlock (blockAt V c 0 t) (blockAt V c 1 t) (blockAt V c 2 t) (blockAt V c 3 t) (blockAt V c 4 t) (blockAt V c 5 t) (blockAt V c 6 t) := by dsimp only [dat]

theorem before_0 (c : Dev nD) (t : Fin cfg1.N) (d) : (dat V c).before 0 t d = blockAt V c 0 t :=
  before_0_of V (dat V c) (A_eq V c 0) (after_0 V c) t d
theorem before_1 (c : Dev nD) (t : Fin cfg1.N) (d) : (dat V c).before 1 t d = blockAt V c 1 t :=
  before_1_of V (dat V c) (A_eq V c 1) (after_1 V c) t d
theorem before_2 (c : Dev nD) (t : Fin cfg1.N) (d) : (dat V c).before 2 t d = blockAt V c 2 t :=
  before_2_of V (dat V c) (A_eq V c 2) (after_2 V c) t d
theorem before_3 (c : Dev nD) (t : Fin cfg1.N) (d) : (dat V c).before 3 t d = blockAt V c 3 t :=
  before_3_of V (dat V c) (A_eq V c 3) (after_3 V c) t d
theorem before_4 (c : Dev nD) (t : Fin cfg1.N) (d) : (dat V c).before 4 t d = blockAt V c 4 t :=
  before_4_of V (dat V c) (A_eq V c 4) (after_4 V c) t d
theorem before_5 (c : Dev nD) (t : Fin cfg1.N) (d) : (dat V c).before 5 t d = blockAt V c 5 t :=
  before_5_of V (dat V c) (A_eq V c 5) (after_5 V c) t d
theorem before_6 (c : Dev nD) (t : Fin cfg1.N) (d) : (dat V c).before 6 t d = blockAt V c 6 t :=
  before_6_of V (dat V c) (A_eq V c 6) (after_6 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- The body at any point: the inputs' memrefs hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Node

end
-- ==== Proof.KernelIdeal.Run.lean ====
/-
  The whole run of @main on every core, for any float family: the host operations before the edge network, the edge
  network's pallas_call, the host operations between (the scatter-add of the edge messages into node buckets and the
  concatenation with the node features), and the node network's pallas_call. The contents of every unscoped buffer are
  followed through the four segments — `atLaunch`, `atEdgeEntry` (after the first host stretch), `atEdgeExit` (the
  edge call's arrays at what its write-backs leave, everything else as entered), `atNodeEntry`, `atEnd` — and the
  launch theorem for a program of several kernel regions gives: every weakly fair execution terminates, nothing
  faults, and every unscoped buffer ends at `atEnd` (`run_all`). Read at the sixteen arguments this is the frame
  (no host operation writes an argument, and a region only reads the arguments it takes); read at the two result
  buffers it names the results as the two pipelines' final output arrays.
-/
import proofs.«136190_j64424509440353_1_alg».proof.Proof.KernelIdeal.EdgeBody
import proofs.«136190_j64424509440353_1_alg».proof.Proof.KernelIdeal.NodeBody
import proofs.«136190_j64424509440353_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev atLaunch : Dev nD → Valuation τ sig (Elt F) := fun c b => m (c, b)
/-- After the first host stretch: the edge call's entry. -/
abbrev atEdgeEntry : Dev nD → Valuation τ sig (Elt F) := fun c => StableHlo.after hostOps0 (atLaunch m c)
/-- The same read at the TensorCore's references. -/
abbrev edgeEntry : (c : Dev nD) → (b : Ref sig .tc) → Buf (Elt F) ((c : Thread nD τ).loc b) := fun c b => atEdgeEntry m c b
/-- At the edge call's exit: its arrays at what the pipeline leaves, every other buffer as entered. -/
def atEdgeExit (c : Dev nD) : Valuation τ sig (Elt F) :=
  Pipeline.withArrays spec0 c (atEdgeEntry m c) fun w => (Edge.dat (edgeEntry m) c).arrAt w cfg0.N
theorem atEdgeExit_arr (c : Dev nD) (w : Fin cfg0.W) :
    atEdgeExit m c (Proc.devRef .tc (Pipeline.arrRef spec0 w)) = (Edge.dat (edgeEntry m) c).arrAt w cfg0.N := by
  unfold atEdgeExit; exact Pipeline.withArrays_arr spec0 launch0.win.arr_inj c _ _ w
theorem atEdgeExit_of_ne (c : Dev nD) (b : Ref sig .tc) (hb : ∀ w, Pipeline.arrRef spec0 w ≠ b) :
    atEdgeExit m c (Proc.devRef .tc b) = atEdgeEntry m c (Proc.devRef .tc b) := by
  unfold atEdgeExit; exact Pipeline.withArrays_of_ne spec0 c _ _ b hb
abbrev edgeExit : (c : Dev nD) → (b : Ref sig .tc) → Buf (Elt F) ((c : Thread nD τ).loc b) := fun c b => atEdgeExit m c b
theorem edge_arrays (c : Dev nD) (w : Fin cfg0.W) : (Edge.dat (edgeEntry m) c).arrAt w cfg0.N = edgeExit m c (Pipeline.arrRef spec0 w) :=
  (atEdgeExit_arr m c w).symm
theorem edge_rest (c : Dev nD) : ∀ b, b ∉ Finset.univ.image (Pipeline.arrRef spec0) → edgeExit m c b = edgeEntry m c b :=
  fun b hb => atEdgeExit_of_ne m c b fun w e => hb (Finset.mem_image.mpr ⟨w, Finset.mem_univ _, e⟩)

/-- After the second host stretch: the node call's entry. -/
abbrev atNodeEntry : Dev nD → Valuation τ sig (Elt F) := fun c => StableHlo.after hostOps1 (atEdgeExit m c)
abbrev nodeEntry : (c : Dev nD) → (b : Ref sig .tc) → Buf (Elt F) ((c : Thread nD τ).loc b) := fun c b => atNodeEntry m c b
/-- At the node call's exit, which is the end of @main. -/
def atEnd (c : Dev nD) : Valuation τ sig (Elt F) :=
  Pipeline.withArrays spec1 c (atNodeEntry m c) fun w => (Node.dat (nodeEntry m) c).arrAt w cfg1.N
theorem atEnd_arr (c : Dev nD) (w : Fin cfg1.W) :
    atEnd m c (Proc.devRef .tc (Pipeline.arrRef spec1 w)) = (Node.dat (nodeEntry m) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m c (Proc.devRef .tc b) = atNodeEntry m c (Proc.devRef .tc b) := by
  unfold atEnd; exact Pipeline.withArrays_of_ne spec1 c _ _ b hb
abbrev nodeExit : (c : Dev nD) → (b : Ref sig .tc) → Buf (Elt F) ((c : Thread nD τ).loc b) := fun c b => atEnd m c b
theorem node_arrays (c : Dev nD) (w : Fin cfg1.W) : (Node.dat (nodeEntry m) c).arrAt w cfg1.N = nodeExit m c (Pipeline.arrRef spec1 w) :=
  (atEnd_arr m c w).symm
theorem node_rest (c : Dev nD) : ∀ b, b ∉ Finset.univ.image (Pipeline.arrRef spec1) → nodeExit m c b = nodeEntry m c b :=
  fun b hb => atEnd_of_ne m c b fun w e => hb (Finset.mem_image.mpr ⟨w, Finset.mem_univ _, e⟩)

/-! ## What each segment leaves unchanged -/

/-- The edge call changes only its result array: an array it takes as an input window ends as entered (an input
    window is never written back), and a buffer that is no window's array is not touched. -/
theorem edge_keeps (c : Dev nD) (b : Ref sig .tc) (hb : b ≠ main_v18) :
    atEdgeExit m c (Proc.devRef .tc b) = atEdgeEntry m c (Proc.devRef .tc b) := by
  by_cases h : ∃ w, Pipeline.arrRef spec0 w = b
  · obtain ⟨w, rfl⟩ := h
    have hw : (cfg0.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, _ => rfl
      | ⟨7, _⟩, hb => exact absurd rfl hb
    exact (atEdgeExit_arr m c w).trans (((Edge.dat (edgeEntry m) c).arrAt_in w hw _).trans (Edge.A_eq (edgeEntry m) c w))
  · exact atEdgeExit_of_ne m c b fun w e => h ⟨w, e⟩

/-- The node call changes only its result array. -/
theorem node_keeps (c : Dev nD) (b : Ref sig .tc) (hb : b ≠ main_v26) :
    atEnd m c (Proc.devRef .tc b) = atNodeEntry m c (Proc.devRef .tc b) := by
  by_cases h : ∃ w, Pipeline.arrRef spec1 w = b
  · obtain ⟨w, rfl⟩ := h
    have hw : (cfg1.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, _ => rfl
      | ⟨7, _⟩, hb => exact absurd rfl hb
    exact (atEnd_arr m c w).trans (((Node.dat (nodeEntry m) c).arrAt_in w hw _).trans (Node.A_eq (nodeEntry m) c w))
  · exact atEnd_of_ne m c b fun w e => h ⟨w, e⟩

/-- A buffer that neither host stretch writes and that is neither call's result ends as launched. -/
theorem atEnd_kept (c : Dev nD) (b : Ref sig .tc) (h0 : b ∉ hostOps0_W) (h1 : b ∉ hostOps1_W) (he : b ≠ main_v18) (hn : b ≠ main_v26) :
    atEnd m c (Proc.devRef .tc b) = m ((c : Thread nD τ).loc b) :=
  (node_keeps m c b hn).trans <| (StableHlo.after_of_writes_sub hostOps1 _ hostOps1_writes h1).trans <|
    (edge_keeps m c b he).trans <| (StableHlo.after_of_writes_sub hostOps0 _ hostOps0_writes h0).trans rfl

/-- The edge result is not touched after the edge call: the second host stretch only reads it. -/
theorem atEnd_edge_result (c : Dev nD) :
    atEnd m c (Proc.devRef .tc main_v18) = (Edge.dat (edgeEntry m) c).arrAt 7 cfg0.N :=
  (node_keeps m c main_v18 (by decide)).trans <| (StableHlo.after_of_writes_sub hostOps1 _ hostOps1_writes (by decide)).trans <|
    atEdgeExit_arr m c 7

/-- The node result is the node pipeline's final output array. -/
theorem atEnd_node_result (c : Dev nD) :
    atEnd m c (Proc.devRef .tc main_v26) = (Node.dat (nodeEntry m) c).arrAt 7 cfg1.N :=
  atEnd_arr m c 7

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Edge.dat (edgeEntry m) c
  | ⟨1, _⟩ => fun c => Node.dat (nodeEntry m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at some state. -/
abbrev Tₙ (c : Dev nD) : sProp 𝕄 := iprop(StableHlo.held (c : Thread nD τ) (Pipeline.ucRefs τ sig) (atEnd m c) ∗ ∃ r, prngReg c r)

/-! ## The two pallas_calls as segments -/

set_option backward.isDefEq.respectTransparency.types false in
/-- The edge call over the thread state: entered from every unscoped buffer at `atEdgeEntry`, left at `atEdgeExit`. Its
    arrays are split out of the unscoped buffers and put back at the exit contents; the generator register goes into
    the pipeline's invariant and comes out; nothing is owed; the kernel has no semaphore of its own. -/
def edgeSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (edgeEntry m) c).loose
  hwaits := Pipeline.hwaits_of_owed_zero _ _ _ _ L lv 0 fun _ _ => rfl
  pre c := iprop(StableHlo.held (c : Thread nD τ) (Pipeline.ucRefs τ sig) (atEdgeEntry m c) ∗ R c)
  post c := iprop(StableHlo.held (c : Thread nD τ) (Pipeline.ucRefs τ sig) (atEdgeExit m c) ∗ R c)
  X c := iprop(∃ r, prngReg c r)
  Y c := iprop(∃ r, prngReg c r)
  Z c := Pipeline.unscopedRest (Ix := Unit) (Name := ℕ) (U := UR sig nD τ) (Lvl := ℕ) spec0 c (edgeEntry m c)
  hentry c := by
    rw [Pipeline.ownSems0_none]
    have hsplit := Pipeline.arrays_of_unscopedBufs (p := 0) (pcfgs (F := F)) adm (pdats m) launch0.win launch0.arr_whole c
      ((pdats m 0 c).share_full fun _ => rfl) (edgeEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (edgeEntry m c) (edgeExit m c) ((pdats m 0 c).arrAt · cfg0.N) (edge_arrays m c) (edge_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node call over the thread state: entered from every unscoped buffer at `atNodeEntry`, left at `atEnd`. -/
def nodeSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (nodeEntry m) c).loose
  hwaits := Pipeline.hwaits_of_owed_zero _ _ _ _ L lv 1 fun _ _ => rfl
  pre c := iprop(StableHlo.held (c : Thread nD τ) (Pipeline.ucRefs τ sig) (atNodeEntry m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (nodeEntry m c)
  hentry c := by
    rw [Pipeline.ownSems0_none]
    have hsplit := Pipeline.arrays_of_unscopedBufs (p := 1) (pcfgs (F := F)) adm (pdats m) launch1.win launch1.arr_whole c
      ((pdats m 1 c).share_full fun _ => rfl) (nodeEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (nodeEntry m c) (nodeExit m c) ((pdats m 1 c).arrAt · cfg1.N) (node_arrays m c) (node_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segments : List (Pipeline.Seg (pcfgs (F := F)) adm (pdats m) () defs₀ 𝒱₀ L lv) :=
  [ .host (hseg hostOps0 hostOps0_sub hostOps0_fresh (atLaunch m)),
    .region (edgeSeg m),
    .host (hseg hostOps1 hostOps1_sub hostOps1_fresh (atEdgeExit m)),
    .region (nodeSeg m) ]
/-- @main is the run of the segments. -/
theorem main_run (c : Dev nD) : main (F := F) c = Pipeline.Seg.run (segments m) := (main_chain c).trans (by chain_rfl)

set_option backward.isDefEq.respectTransparency.types false in
/-- From any memory with zero counters every weakly fair execution of @main on the TensorCores terminates, nothing
    faulting, and in every final state each unscoped buffer of each core holds `atEnd`'s contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) adm (pdats m) () cellOf_inj emb₁ defs₀ 𝒱₀ L lv m ρ main (segments m)
    (fun c Q => by rw [main_run m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h => h)

/-! ## The frame -/

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
    (h c _ (mem_uc main_arg0 (by decide))).trans (atEnd_kept m c main_arg0 (by decide) (by decide) (by decide) (by decide)),
    (h c _ (mem_uc main_arg1 (by decide))).trans (atEnd_kept m c main_arg1 (by decide) (by decide) (by decide) (by decide)),
    (h c _ (mem_uc main_arg2 (by decide))).trans (atEnd_kept m c main_arg2 (by decide) (by decide) (by decide) (by decide)),
    (h c _ (mem_uc main_arg3 (by decide))).trans (atEnd_kept m c main_arg3 (by decide) (by decide) (by decide) (by decide)),
    (h c _ (mem_uc main_arg4 (by decide))).trans (atEnd_kept m c main_arg4 (by decide) (by decide) (by decide) (by decide)),
    (h c _ (mem_uc main_arg5 (by decide))).trans (atEnd_kept m c main_arg5 (by decide) (by decide) (by decide) (by decide)),
    (h c _ (mem_uc main_arg6 (by decide))).trans (atEnd_kept m c main_arg6 (by decide) (by decide) (by decide) (by decide)),
    (h c _ (mem_uc main_arg7 (by decide))).trans (atEnd_kept m c main_arg7 (by decide) (by decide) (by decide) (by decide)),
    (h c _ (mem_uc main_arg8 (by decide))).trans (atEnd_kept m c main_arg8 (by decide) (by decide) (by decide) (by decide)),
    (h c _ (mem_uc main_arg9 (by decide))).trans (atEnd_kept m c main_arg9 (by decide) (by decide) (by decide) (by decide)),
    (h c _ (mem_uc main_arg10 (by decide))).trans (atEnd_kept m c main_arg10 (by decide) (by decide) (by decide) (by decide)),
    (h c _ (mem_uc main_arg11 (by decide))).trans (atEnd_kept m c main_arg11 (by decide) (by decide) (by decide) (by decide)),
    (h c _ (mem_uc main_arg12 (by decide))).trans (atEnd_kept m c main_arg12 (by decide) (by decide) (by decide) (by decide)),
    (h c _ (mem_uc main_arg13 (by decide))).trans (atEnd_kept m c main_arg13 (by decide) (by decide) (by decide) (by decide)),
    (h c _ (mem_uc main_arg14 (by decide))).trans (atEnd_kept m c main_arg14 (by decide) (by decide) (by decide) (by decide)),
    (h c _ (mem_uc main_arg15 (by decide))).trans (atEnd_kept m c main_arg15 (by decide) (by decide) (by decide) (by decide))⟩)
    (run_all m ρ)

end Cert.KernelIdeal.Run

end
-- ==== Proof.Mlp.lean ====
/-
  A three-layer perceptron with ReLU after every layer, on the extended reals, as a function of whole arrays read index
  by index. One layer sends a row `x r ·` of its input to `max (∑ k, x r k · w k j + b j) 0` at column `j`; the network
  is three such layers of widths `K → 64 → 64 → 32`. Every row of the result depends on the same row of the input and
  on nothing else of it (`mlp_congr_row`): this is what lets a kernel compute the network a block of rows at a time.
-/
import Idealize.ShloMosaic.Lib.ValueIdx
import Idealize.ShloMosaic.PureOps.Ideal

noncomputable section

namespace Cert.Mlp

open Idealize.ShloMosaic Idealize.ShloMosaic.ValueIdx
open scoped BigOperators

/-- The row and the column of a rank-2 index, as plain `Fin`s. -/
abbrev row {a b : ℕ} (i : (⟨2, ![a, b]⟩ : Shape).Idx) : Fin a := ⟨(i 0).val, (i 0).isLt⟩
abbrev col {a b : ℕ} (i : (⟨2, ![a, b]⟩ : Shape).Idx) : Fin b := ⟨(i 1).val, (i 1).isLt⟩

theorem row_ix2 {a b : ℕ} (p : Fin a) (q : Fin b) : row (ix2 p q) = p := rfl
theorem col_ix2 {a b : ℕ} (p : Fin a) (q : Fin b) : col (ix2 p q) = q := rfl
theorem ix2_row_col {a b : ℕ} (i : (⟨2, ![a, b]⟩ : Shape).Idx) : ix2 (row i) (col i) = i := by
  funext d; match d with | ⟨0, _⟩ => rfl | ⟨1, _⟩ => rfl

/-- One dense layer followed by ReLU: entry `(r, j)` is `max (∑ k, x r k · w k j + b j) 0`. -/
def dense {R K N : ℕ} (x : (⟨2, ![R, K]⟩ : Shape).Idx → EReal) (w : (⟨2, ![K, N]⟩ : Shape).Idx → EReal) (b : Fin N → EReal) :
    (⟨2, ![R, N]⟩ : Shape).Idx → EReal :=
  fun i => max (∑ k : Fin K, x (ix2 (row i) k) * w (ix2 k (col i)) + b (col i)) 0

/-- The network: three dense layers, each followed by ReLU, of widths `K → 64 → 64 → 32`. -/
def mlp {R K : ℕ} (x : (⟨2, ![R, K]⟩ : Shape).Idx → EReal)
    (w1 : (⟨2, ![K, 64]⟩ : Shape).Idx → EReal) (b1 : Fin 64 → EReal)
    (w2 : (⟨2, ![64, 64]⟩ : Shape).Idx → EReal) (b2 : Fin 64 → EReal)
    (w3 : (⟨2, ![64, 32]⟩ : Shape).Idx → EReal) (b3 : Fin 32 → EReal) : (⟨2, ![R, 32]⟩ : Shape).Idx → EReal :=
  dense (dense (dense x w1 b1) w2 b2) w3 b3

/-- A layer's entry depends on its input's row of that entry only: two inputs, of any numbers of rows, that agree on
    the two rows give the same entry in the same column. -/
theorem dense_congr_row {R R' K N : ℕ} (x : (⟨2, ![R, K]⟩ : Shape).Idx → EReal) (x' : (⟨2, ![R', K]⟩ : Shape).Idx → EReal)
    (w : (⟨2, ![K, N]⟩ : Shape).Idx → EReal) (b : Fin N → EReal)
    (i : (⟨2, ![R, N]⟩ : Shape).Idx) (i' : (⟨2, ![R', N]⟩ : Shape).Idx)
    (hx : ∀ k : Fin K, x (ix2 (row i) k) = x' (ix2 (row i') k)) (hc : col i = col i') :
    dense x w b i = dense x' w b i' := by
  unfold dense
  rw [hc]
  exact congrArg (fun s => max (s + b (col i')) 0) (Finset.sum_congr rfl fun k _ => by rw [hx k])

/-- The same of the whole network. -/
theorem mlp_congr_row {R R' K : ℕ} (x : (⟨2, ![R, K]⟩ : Shape).Idx → EReal) (x' : (⟨2, ![R', K]⟩ : Shape).Idx → EReal)
    (w1 : (⟨2, ![K, 64]⟩ : Shape).Idx → EReal) (b1 : Fin 64 → EReal)
    (w2 : (⟨2, ![64, 64]⟩ : Shape).Idx → EReal) (b2 : Fin 64 → EReal)
    (w3 : (⟨2, ![64, 32]⟩ : Shape).Idx → EReal) (b3 : Fin 32 → EReal)
    (i : (⟨2, ![R, 32]⟩ : Shape).Idx) (i' : (⟨2, ![R', 32]⟩ : Shape).Idx)
    (hx : ∀ k : Fin K, x (ix2 (row i) k) = x' (ix2 (row i') k)) (hc : col i = col i') :
    mlp x w1 b1 w2 b2 w3 b3 i = mlp x' w1 b1 w2 b2 w3 b3 i' := by
  unfold mlp
  refine dense_congr_row _ _ _ _ i i' (fun k => ?_) hc
  refine dense_congr_row _ _ _ _ _ _ (fun k' => ?_) rfl
  refine dense_congr_row _ _ _ _ _ _ (fun k'' => ?_) rfl
  exact hx k''

/-- A bias stored as a `1 × N` array, read as a function of the column. -/
abbrev biasRow {N : ℕ} (b : (⟨2, ![1, N]⟩ : Shape).Idx → EReal) : Fin N → EReal := fun j => b (ix2 (0 : Fin 1) j)
/-- A bias stored as a vector of length `N`, read as a function of its index. -/
abbrev biasVec {N : ℕ} (b : (⟨1, ![N]⟩ : Shape).Idx → EReal) : Fin N → EReal := fun j => b (ix1 j)

end Cert.Mlp

end
-- ==== Proof.KernelIdeal.Payload.lean ====
/-
  The arithmetic of the two kernel bodies, read at the extended reals, is the three-layer perceptron of `Mlp.lean` on
  the block of rows the body loaded: a change of float format is the identity there, a matrix product into a zero
  accumulator is the plain sum of products over the contracted index, the bias row is broadcast down the rows, and ReLU
  is `max · 0`.
-/
import proofs.«136190_j64424509440353_1_alg».proof.Proof.Gen.KernelIdeal.Skeleton
import proofs.«136190_j64424509440353_1_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx Cert.Mlp
open scoped BigOperators

/-! ## The three matrix products

Each product contracts the left operand's columns against the right operand's rows; its contraction index has one
coordinate, which is re-indexed to a plain `Fin K`. -/

/-! ### `5000 × 96` by `96 × 64` -/

/-- The left operand's row is the output's row. -/
theorem lhs_96x64_0 (i : S5000x64.Idx) (q : dot_S5000x96_S96x64_S5000x64_1_0_0_1_n_n.contr.Idx) :
    (dot_S5000x96_S96x64_S5000x64_1_0_0_1_n_n.lhsIdx i q 0).val = (i 0).val := by
  unfold DotDims.lhsIdx
  rw [dif_neg (show ¬(0 : Fin S5000x96.rank) ∈ dot_S5000x96_S96x64_S5000x64_1_0_0_1_n_n.lhsBatch by decide),
    dif_pos (show (0 : Fin S5000x96.rank) ∈ dot_S5000x96_S96x64_S5000x64_1_0_0_1_n_n.lhsNonContracting by decide)]
  rfl
/-- The left operand's column is the contracted index. -/
theorem lhs_96x64_1 (i : S5000x64.Idx) (q : dot_S5000x96_S96x64_S5000x64_1_0_0_1_n_n.contr.Idx) :
    (dot_S5000x96_S96x64_S5000x64_1_0_0_1_n_n.lhsIdx i q 1).val = (q ⟨0, by decide⟩).val :=
  dot_S5000x96_S96x64_S5000x64_1_0_0_1_n_n.lhsIdx_val_of_single rfl i q
/-- The right operand's row is the contracted index. -/
theorem rhs_96x64_0 (i : S5000x64.Idx) (q : dot_S5000x96_S96x64_S5000x64_1_0_0_1_n_n.contr.Idx) :
    (dot_S5000x96_S96x64_S5000x64_1_0_0_1_n_n.rhsIdx i q 0).val = (q ⟨0, by decide⟩).val :=
  dot_S5000x96_S96x64_S5000x64_1_0_0_1_n_n.rhsIdx_val_of_single rfl i q
/-- The right operand's column is the output's column. -/
theorem rhs_96x64_1 (i : S5000x64.Idx) (q : dot_S5000x96_S96x64_S5000x64_1_0_0_1_n_n.contr.Idx) :
    (dot_S5000x96_S96x64_S5000x64_1_0_0_1_n_n.rhsIdx i q 1).val = (i 1).val := by
  unfold DotDims.rhsIdx
  rw [dif_neg (show ¬(1 : Fin S96x64.rank) ∈ dot_S5000x96_S96x64_S5000x64_1_0_0_1_n_n.rhsBatch by decide),
    dif_pos (show (1 : Fin S96x64.rank) ∈ dot_S5000x96_S96x64_S5000x64_1_0_0_1_n_n.rhsNonContracting by decide)]
  rfl

/-- The product into a zero accumulator, entry by entry: row of the left operand against column of the right. -/
theorem matmul_96x64 {φ₁ φ₂ : FTy} (x : FVec Ideal S5000x96 φ₁) (w : FVec Ideal S96x64 φ₂) (j : S5000x64.Idx) :
    matmul dot_S5000x96_S96x64_S5000x64_1_0_0_1_n_n none x w (constant (F := Ideal) S5000x64 .f32 0x00000000#32) j
      = ∑ k : Fin 96, x (ix2 (row j) k) * w (ix2 k (col j)) := by
  refine (Ideal.matmul_constant_zero_apply dot_S5000x96_S96x64_S5000x64_1_0_0_1_n_n none x w j).trans ?_
  rw [← Equiv.sum_comp (contrEquiv1 dot_S5000x96_S96x64_S5000x64_1_0_0_1_n_n 96 rfl rfl).symm]
  refine Finset.sum_congr rfl fun k _ => ?_
  have hk := contrEquiv1_symm_val dot_S5000x96_S96x64_S5000x64_1_0_0_1_n_n 96 rfl rfl k
  have el : dot_S5000x96_S96x64_S5000x64_1_0_0_1_n_n.lhsIdx j ((contrEquiv1 dot_S5000x96_S96x64_S5000x64_1_0_0_1_n_n 96 rfl rfl).symm k)
      = ix2 (row j) k := funext fun a => Fin.ext (by
    match a with
    | ⟨0, _⟩ => exact lhs_96x64_0 _ _
    | ⟨1, _⟩ => exact (lhs_96x64_1 _ _).trans hk)
  have er : dot_S5000x96_S96x64_S5000x64_1_0_0_1_n_n.rhsIdx j ((contrEquiv1 dot_S5000x96_S96x64_S5000x64_1_0_0_1_n_n 96 rfl rfl).symm k)
      = ix2 k (col j) := funext fun a => Fin.ext (by
    match a with
    | ⟨0, _⟩ => exact (rhs_96x64_0 _ _).trans hk
    | ⟨1, _⟩ => exact rhs_96x64_1 _ _)
  rw [el, er]

/-! ### `5000 × 64` by `64 × 64` -/

/-- The left operand's row is the output's row. -/
theorem lhs_64x64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- The left operand's column is the contracted index. -/
theorem lhs_64x64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row is the contracted index. -/
theorem rhs_64x64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column is the output's column. -/
theorem rhs_64x64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product into a zero accumulator, entry by entry: row of the left operand against column of the right. -/
theorem matmul_64x64 {φ₁ φ₂ : FTy} (x : FVec Ideal S5000x64 φ₁) (w : FVec Ideal S64x64 φ₂) (j : S5000x64.Idx) :
    matmul dot_S5000x64_S64x64_S5000x64_1_0_0_1_n_n none x w (constant (F := Ideal) S5000x64 .f32 0x00000000#32) j
      = ∑ k : Fin 64, x (ix2 (row j) k) * w (ix2 k (col j)) := by
  refine (Ideal.matmul_constant_zero_apply dot_S5000x64_S64x64_S5000x64_1_0_0_1_n_n none x w j).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx j ((contrEquiv1 dot_S5000x64_S64x64_S5000x64_1_0_0_1_n_n 64 rfl rfl).symm k)
      = ix2 (row j) k := funext fun a => Fin.ext (by
    match a with
    | ⟨0, _⟩ => exact lhs_64x64_0 _ _
    | ⟨1, _⟩ => exact (lhs_64x64_1 _ _).trans hk)
  have er : dot_S5000x64_S64x64_S5000x64_1_0_0_1_n_n.rhsIdx j ((contrEquiv1 dot_S5000x64_S64x64_S5000x64_1_0_0_1_n_n 64 rfl rfl).symm k)
      = ix2 k (col j) := funext fun a => Fin.ext (by
    match a with
    | ⟨0, _⟩ => exact (rhs_64x64_0 _ _).trans hk
    | ⟨1, _⟩ => exact rhs_64x64_1 _ _)
  rw [el, er]

/-! ### `5000 × 64` by `64 × 32` -/

/-- The left operand's row is the output's row. -/
theorem lhs_64x32_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl
/-- The left operand's column is the contracted index. -/
theorem lhs_64x32_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
/-- The right operand's row is the contracted index. -/
theorem rhs_64x32_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
/-- The right operand's column is the output's column. -/
theorem rhs_64x32_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-- The product into a zero accumulator, entry by entry: row of the left operand against column of the right. -/
theorem matmul_64x32 {φ₁ φ₂ : FTy} (x : FVec Ideal S5000x64 φ₁) (w : FVec Ideal S64x32 φ₂) (j : S5000x32.Idx) :
    matmul dot_S5000x64_S64x32_S5000x32_1_0_0_1_n_n none x w (constant (F := Ideal) S5000x32 .f32 0x00000000#32) j
      = ∑ k : Fin 64, x (ix2 (row j) k) * w (ix2 k (col j)) := by
  refine (Ideal.matmul_constant_zero_apply dot_S5000x64_S64x32_S5000x32_1_0_0_1_n_n none x w j).trans ?_
  rw [← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx j ((contrEquiv1 dot_S5000x64_S64x32_S5000x32_1_0_0_1_n_n 64 rfl rfl).symm k)
      = ix2 (row j) k := funext fun a => Fin.ext (by
    match a with
    | ⟨0, _⟩ => exact lhs_64x32_0 _ _
    | ⟨1, _⟩ => exact (lhs_64x32_1 _ _).trans hk)
  have er : dot_S5000x64_S64x32_S5000x32_1_0_0_1_n_n.rhsIdx j ((contrEquiv1 dot_S5000x64_S64x32_S5000x32_1_0_0_1_n_n 64 rfl rfl).symm k)
      = ix2 k (col j) := funext fun a => Fin.ext (by
    match a with
    | ⟨0, _⟩ => exact (rhs_64x32_0 _ _).trans hk
    | ⟨1, _⟩ => exact rhs_64x32_1 _ _)
  rw [el, er]

/-! ## The bias rows

A `1 × N` row broadcast to `5000 × N` reads, at `(r, c)`, the row's entry `(0, c)`. -/

/-- The 64-wide bias row, broadcast down 5000 rows. -/
theorem bias_64 (b : FVec Ideal S1x64 .f32) (h1 : S1x64.ShapeCasts S1x64) (h2 : S1x64.Broadcasts S5000x64) (j : S5000x64.Idx) :
    broadcastTo S5000x64 (shapeCast S1x64 b h1) h2 j = b (ix2 (0 : Fin 1) (col j)) := by
  rw [shapeCast_self]
  refine broadcastTo_apply b h2 j _ (fun a => ?_)
  match a with
  | ⟨0, _⟩ => rfl
  | ⟨1, _⟩ => rfl

/-- The 32-wide bias row, broadcast down 5000 rows. -/
theorem bias_32 (b : FVec Ideal S1x32 .f32) (h1 : S1x32.ShapeCasts S1x32) (h2 : S1x32.Broadcasts S5000x32) (j : S5000x32.Idx) :
    broadcastTo S5000x32 (shapeCast S1x32 b h1) h2 j = b (ix2 (0 : Fin 1) (col j)) := by
  rw [shapeCast_self]
  refine broadcastTo_apply b h2 j _ (fun a => ?_)
  match a with
  | ⟨0, _⟩ => rfl
  | ⟨1, _⟩ => rfl

/-! ## One layer -/

/-- The layer `96 → 64` of a body: the product of the two operands, each cut to the narrower format (the identity on the
    extended reals), plus the bias row down the rows, then the maximum with zero. -/
theorem layer_96x64 (x : FVec Ideal S5000x96 .f32) (w : FVec Ideal S96x64 .f32) (b : FVec Ideal S1x64 .f32)
    (hb : FTy.bits .bf16 < FTy.bits .f32) (h1 : S1x64.ShapeCasts S1x64) (h2 : S1x64.Broadcasts S5000x64) :
    maximumf (addf (matmul dot_S5000x96_S96x64_S5000x64_1_0_0_1_n_n none (truncf .bf16 x hb) (truncf .bf16 w hb)
          (constant (F := Ideal) S5000x64 .f32 0x00000000#32))
        (broadcastTo S5000x64 (shapeCast S1x64 b h1) h2))
      (broadcast S5000x64 (Scalar.ofBits (F := Ideal) .f32 0x00000000#32))
      = dense x w (biasRow b) := by
  funext j
  rw [maximumf_apply, addf_apply, matmul_96x64, bias_64, broadcast_apply]
  show max _ (Ideal.ofBits .f32 0x00000000#32) = _
  rw [Ideal.ofBits_zero_f32]
  rfl

/-- The layer `64 → 64` of a body: the product of the two operands, each cut to the narrower format (the identity on the
    extended reals), plus the bias row down the rows, then the maximum with zero. -/
theorem layer_64x64 (x : FVec Ideal S5000x64 .f32) (w : FVec Ideal S64x64 .f32) (b : FVec Ideal S1x64 .f32)
    (hb : FTy.bits .bf16 < FTy.bits .f32) (h1 : S1x64.ShapeCasts S1x64) (h2 : S1x64.Broadcasts S5000x64) :
    maximumf (addf (matmul dot_S5000x64_S64x64_S5000x64_1_0_0_1_n_n none (truncf .bf16 x hb) (truncf .bf16 w hb)
          (constant (F := Ideal) S5000x64 .f32 0x00000000#32))
        (broadcastTo S5000x64 (shapeCast S1x64 b h1) h2))
      (broadcast S5000x64 (Scalar.ofBits (F := Ideal) .f32 0x00000000#32))
      = dense x w (biasRow b) := by
  funext j
  rw [maximumf_apply, addf_apply, matmul_64x64, bias_64, broadcast_apply]
  show max _ (Ideal.ofBits .f32 0x00000000#32) = _
  rw [Ideal.ofBits_zero_f32]
  rfl

/-- The layer `64 → 32` of a body: the product of the two operands, each cut to the narrower format (the identity on the
    extended reals), plus the bias row down the rows, then the maximum with zero. -/
theorem layer_64x32 (x : FVec Ideal S5000x64 .f32) (w : FVec Ideal S64x32 .f32) (b : FVec Ideal S1x32 .f32)
    (hb : FTy.bits .bf16 < FTy.bits .f32) (h1 : S1x32.ShapeCasts S1x32) (h2 : S1x32.Broadcasts S5000x32) :
    maximumf (addf (matmul dot_S5000x64_S64x32_S5000x32_1_0_0_1_n_n none (truncf .bf16 x hb) (truncf .bf16 w hb)
          (constant (F := Ideal) S5000x32 .f32 0x00000000#32))
        (broadcastTo S5000x32 (shapeCast S1x32 b h1) h2))
      (broadcast S5000x32 (Scalar.ofBits (F := Ideal) .f32 0x00000000#32))
      = dense x w (biasRow b) := by
  funext j
  rw [maximumf_apply, addf_apply, matmul_64x32, bias_32, broadcast_apply]
  show max _ (Ideal.ofBits .f32 0x00000000#32) = _
  rw [Ideal.ofBits_zero_f32]
  rfl

/-! ## The two bodies -/

/-- The edge network's body: the perceptron `96 → 64 → 64 → 32` of the 5000 loaded rows. -/
theorem edge_payload (x : Vec Ideal S5000x96 .f32) (w1 : Vec Ideal S96x64 .f32) (b1 : Vec Ideal S1x64 .f32)
    (w2 : Vec Ideal S64x64 .f32) (b2 : Vec Ideal S1x64 .f32) (w3 : Vec Ideal S64x32 .f32) (b3 : Vec Ideal S1x32 .f32) :
    k0_pay1 (F := Ideal) x w1 b1 w2 b2 w3 b3 = mlp x w1 (biasRow b1) w2 (biasRow b2) w3 (biasRow b3) := by
  unfold k0_pay1 mlp
  simp only [shapeCast_self x]
  rw [layer_96x64, layer_64x64, layer_64x32]

/-- The node network's body: the perceptron `64 → 64 → 64 → 32` of the 5000 loaded rows. -/
theorem node_payload (x : Vec Ideal S5000x64 .f32) (w1 : Vec Ideal S64x64 .f32) (b1 : Vec Ideal S1x64 .f32)
    (w2 : Vec Ideal S64x64 .f32) (b2 : Vec Ideal S1x64 .f32) (w3 : Vec Ideal S64x32 .f32) (b3 : Vec Ideal S1x32 .f32) :
    k1_pay1 (F := Ideal) x w1 b1 w2 b2 w3 b3 = mlp x w1 (biasRow b1) w2 (biasRow b2) w3 (biasRow b3) := by
  unfold k1_pay1 mlp
  simp only [shapeCast_self x]
  rw [layer_64x64, layer_64x64, layer_64x32]

end Cert.KernelIdeal.Payload

end
-- ==== Proof.KernelIdeal.EdgeValue.lean ====
/-
  What the edge network's pallas_call leaves in its result array, at the extended reals and for any contents `V` of the
  core's arrays at the region's entry: the three-layer perceptron of the WHOLE first operand, row by row. Grid point
  `t` writes back rows `5000·t … 5000·t + 4999`; the body's arithmetic on the block of those rows is the perceptron of
  the block (`Payload.lean`), a row of the block is the corresponding row of the array, and a row of the perceptron's
  result depends only on that row of its input; the 320 blocks cover the array.
-/
import proofs.«136190_j64424509440353_1_alg».proof.Proof.KernelIdeal.EdgeBody
import proofs.«136190_j64424509440353_1_alg».proof.Proof.KernelIdeal.Payload
import Idealize.ShloMosaic.Lib.Pipeline.Value

set_option maxRecDepth 16384

noncomputable section

namespace Cert.KernelIdeal.EdgeValue

open Cert.KernelIdeal Cert.KernelIdeal.Gen
open Idealize.ShloMosaic Idealize.ShloMosaic.TcCoe Idealize.ShloMosaic.ValueIdx Idealize.SL.Sem Cert.Mlp
open Idealize.ShloMosaic.Pipeline (Dat Cfg Window)

variable (V : (c : Dev nD) → (b : Ref sig .tc) → Buf (Elt Ideal) ((c : Thread nD τ).loc b))

/-- The result as one function of the arrays the region finds: the perceptron of the first operand's rows, with the
    three weight matrices and the three bias rows. -/
def result (c : Dev nD) : Vec Ideal S1600000x32 .f32 :=
  mlp (V c main_v14 : Vec Ideal S1600000x96 .f32) (V c main_arg4 : Vec Ideal S96x64 .f32) (biasRow (V c main_v15 : Vec Ideal S1x64 .f32))
    (V c main_arg6 : Vec Ideal S64x64 .f32) (biasRow (V c main_v16 : Vec Ideal S1x64 .f32)) (V c main_arg8 : Vec Ideal S64x32 .f32) (biasRow (V c main_v17 : Vec Ideal S1x32 .f32))

/-! ## The index maps -/

/-- The zero offsets, however spelt. -/
theorem hz : (![0, 0] : Fin 2 → Nat) = fun _ => 0 := funext fun a => by fin_cases a <;> rfl

/-- The windows' index maps at every grid point: the first operand's and the result's block index is (t, 0), the six
    weight and bias windows' is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input blocks, read off the arrays -/

/-- Row `y 0` of the first operand's block at point `t` is row `5000·t + y 0` of the array. -/
theorem block0_apply (c : Dev nD) (t : Fin cfg0.N) (y : S5000x96.Idx) (i : S1600000x96.Idx)
    (h0 : (i 0).val = 5000 * t.val + (y 0).val) (h1 : (i 1).val = (y 1).val) :
    (Edge.blockAt V c 0 t : Vec Ideal S5000x96 .f32) y = (V c main_v14 : Vec Ideal S1600000x96 .f32) i := by
  obtain ⟨e0, e1, -⟩ := idx_facts t
  show V c main_v14 (((cfg0.win 0).blk t).view.emb y) = V c main_v14 i
  congr 1
  funext a; apply Fin.ext
  match a with
  | ⟨0, _⟩ => show win0_0.index t (0 : Fin 2) * 5000 + 1 * (y 0).val = (i 0).val; omega
  | ⟨1, _⟩ => show win0_0.index t (1 : Fin 2) * 96 + 1 * (y 1).val = (i 1).val; omega

/-- Window 1's block index is (0, 0) at every point and its block is the whole array: the block is the first weight matrix. -/
theorem block1_eq (c : Dev nD) (t : Fin cfg0.N) :
    (Edge.blockAt V c 1 t : Vec Ideal S96x64 .f32) = (V c main_arg4 : Vec Ideal S96x64 .f32) := by
  obtain ⟨-, -, e0, e1, -⟩ := idx_facts t
  funext y
  show V c main_arg4 (((cfg0.win 1).blk t).view.emb y) = V c main_arg4 y
  congr 1
  funext a; apply Fin.ext
  match a with
  | ⟨0, _⟩ => show win0_1.index t (0 : Fin 2) * 96 + 1 * (y 0).val = (y 0).val; omega
  | ⟨1, _⟩ => show win0_1.index t (1 : Fin 2) * 64 + 1 * (y 1).val = (y 1).val; omega

/-- Window 2's block index is (0, 0) at every point and its block is the whole array: the block is the first bias row. -/
theorem block2_eq (c : Dev nD) (t : Fin cfg0.N) :
    (Edge.blockAt V c 2 t : Vec Ideal S1x64 .f32) = (V c main_v15 : Vec Ideal S1x64 .f32) := by
  obtain ⟨-, -, -, -, e0, e1, -⟩ := idx_facts t
  funext y
  show V c main_v15 (((cfg0.win 2).blk t).view.emb y) = V c main_v15 y
  congr 1
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Window 3's block index is (0, 0) at every point and its block is the whole array: the block is the second weight matrix. -/
theorem block3_eq (c : Dev nD) (t : Fin cfg0.N) :
    (Edge.blockAt V c 3 t : Vec Ideal S64x64 .f32) = (V c main_arg6 : Vec Ideal S64x64 .f32) := by
  obtain ⟨-, -, -, -, -, -, e0, e1, -⟩ := idx_facts t
  funext y
  show V c main_arg6 (((cfg0.win 3).blk t).view.emb y) = V c main_arg6 y
  congr 1
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Window 4's block index is (0, 0) at every point and its block is the whole array: the block is the second bias row. -/
theorem block4_eq (c : Dev nD) (t : Fin cfg0.N) :
    (Edge.blockAt V c 4 t : Vec Ideal S1x64 .f32) = (V c main_v16 : Vec Ideal S1x64 .f32) := by
  obtain ⟨-, -, -, -, -, -, -, -, e0, e1, -⟩ := idx_facts t
  funext y
  show V c main_v16 (((cfg0.win 4).blk t).view.emb y) = V c main_v16 y
  congr 1
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5's block index is (0, 0) at every point and its block is the whole array: the block is the third weight matrix. -/
theorem block5_eq (c : Dev nD) (t : Fin cfg0.N) :
    (Edge.blockAt V c 5 t : Vec Ideal S64x32 .f32) = (V c main_arg8 : Vec Ideal S64x32 .f32) := by
  obtain ⟨-, -, -, -, -, -, -, -, -, -, e0, e1, -⟩ := idx_facts t
  funext y
  show V c main_arg8 (((cfg0.win 5).blk t).view.emb y) = V c main_arg8 y
  congr 1
  funext a; apply Fin.ext
  match a with
  | ⟨0, _⟩ => show win0_5.index t (0 : Fin 2) * 64 + 1 * (y 0).val = (y 0).val; omega
  | ⟨1, _⟩ => show win0_5.index t (1 : Fin 2) * 32 + 1 * (y 1).val = (y 1).val; omega

/-- Window 6's block index is (0, 0) at every point and its block is the whole array: the block is the third bias row. -/
theorem block6_eq (c : Dev nD) (t : Fin cfg0.N) :
    (Edge.blockAt V c 6 t : Vec Ideal S1x32 .f32) = (V c main_v17 : Vec Ideal S1x32 .f32) := by
  obtain ⟨-, -, -, -, -, -, -, -, -, -, -, -, e0, e1, -⟩ := idx_facts t
  funext y
  show V c main_v17 (((cfg0.win 6).blk t).view.emb y) = V c main_v17 y
  congr 1
  funext a; apply Fin.ext
  match a with
  | ⟨0, _⟩ => show win0_6.index t (0 : Fin 2) * 1 + 1 * (y 0).val = (y 0).val; omega
  | ⟨1, _⟩ => show win0_6.index t (1 : Fin 2) * 32 + 1 * (y 1).val = (y 1).val; omega

/-! ## One block of the perceptron -/

/-- The perceptron of a block of 5000 rows that sit at rows `5000·n …` of an array, at row `y 0`, is the perceptron of
    the array at row `5000·n + y 0`: a row of the result depends on that row of the input only. -/
theorem mlp_block (X : Vec Ideal S5000x96 .f32) (A : Vec Ideal S1600000x96 .f32)
    (w1 : Vec Ideal S96x64 .f32) (b1 : Fin 64 → EReal) (w2 : Vec Ideal S64x64 .f32) (b2 : Fin 64 → EReal)
    (w3 : Vec Ideal S64x32 .f32) (b3 : Fin 32 → EReal) (n : ℕ)
    (hX : ∀ (y : S5000x96.Idx) (i : S1600000x96.Idx), (i 0).val = 5000 * n + (y 0).val → (i 1).val = (y 1).val → X y = A i)
    (y : S5000x32.Idx) (i : S1600000x32.Idx) (h0 : (i 0).val = 5000 * n + (y 0).val) (h1 : (i 1).val = (y 1).val) :
    mlp X w1 b1 w2 b2 w3 b3 y = mlp A w1 b1 w2 b2 w3 b3 i :=
  mlp_congr_row X A w1 b1 w2 b2 w3 b3 y i (fun k => hX _ _ h0 rfl) (Fin.ext h1.symm)

/-! ## What a point writes back -/

/-- Grid point `t` writes back block `t` of `result`. -/
theorem flushed_eq (c : Dev nD) (t : Fin cfg0.N) :
    (Edge.dat (F := Ideal) V c).flushed 7 t = ((cfg0.win 7).blk t).view.read (Elt Ideal) (result V c) := by
  show (cfg0.win 7).cut (grid0.coords t) ((Edge.dat (F := Ideal) V c).after 7 t) = _
  rw [Edge.after_7]
  unfold Edge.outBlock
  rw [View.canon_unit_zero hz]
  simp only [View.ld_unit_zero (S := S5000x96) hz, View.ld_unit_zero (S := S96x64) hz, View.ld_unit_zero (S := S1x64) hz,
    View.ld_unit_zero (S := S64x64) hz, View.ld_unit_zero (S := S64x32) hz, View.ld_unit_zero (S := S1x32) hz]
  rw [Payload.edge_payload, block1_eq, block2_eq, block3_eq, block4_eq, block5_eq, block6_eq]
  obtain ⟨-, -, -, -, -, -, -, -, -, -, -, -, -, -, e0, e1⟩ := idx_facts t
  funext j
  refine mlp_block (Edge.blockAt V c 0 t) (V c main_v14) _ _ _ _ _ _ t.val (block0_apply V c t) _ (((cfg0.win 7).blk t).view.emb j) ?_ ?_
  · show win0_7.index t (0 : Fin 2) * 5000 + 1 * (j 0).val = 5000 * t.val + (j 0).val; omega
  · show win0_7.index t (1 : Fin 2) * 32 + 1 * (j 1).val = (j 1).val; omega

/-! ## The blocks cover the array -/

/-- An index of the result array is in point `t`'s block iff each coordinate is in the block's range on its axis. -/
theorem mem_blk (t : Fin cfg0.N) (i : S1600000x32.Idx) :
    i ∈ ((cfg0.win 7).blk t).view.set ↔ ∀ a : Fin 2, win0_7.index t a * S5000x32.size a ≤ (i a).val ∧ (i a).val < win0_7.index t a * S5000x32.size a + S5000x32.size a := by
  show i ∈ ((View.whole main_v18).slice (win0_7.rect t)).set ↔ _
  rw [View.set_slice_whole, Rect.mem_set_unit]
  exact Iff.rfl

/-- Row `r` of the result is in the block of point `r / 5000`. -/
theorem cover (i : S1600000x32.Idx) : ∃ t : Fin cfg0.N, (cfg0.win 7).flush t = true ∧ i ∈ ((cfg0.win 7).blk t).view.set := by
  have hi0 : (i 0).val < 1600000 := (i 0).isLt
  have hi1 : (i 1).val < 32 := (i 1).isLt
  have hN : cfg0.N = 320 := N_0
  have ht : (i 0).val / 5000 < cfg0.N := by rw [hN]; omega
  obtain ⟨-, -, -, -, -, -, -, -, -, -, -, -, -, -, e0, e1⟩ := idx_facts ⟨(i 0).val / 5000, ht⟩
  refine ⟨⟨(i 0).val / 5000, ht⟩, flush0_7 _, ?_⟩
  rw [mem_blk]
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, ht⟩ (1 : Fin 2) * 32 ≤ (i 1).val ∧ (i 1).val < win0_7.index ⟨(i 0).val / 5000, ht⟩ (1 : Fin 2) * 32 + 32
    rw [e1]; omega

/-- After the last grid point the result array holds `result`. -/
theorem array_eq (c : Dev nD) : (Edge.dat (F := Ideal) V c).arrAt 7 cfg0.N = result V c :=
  (Edge.dat (F := Ideal) V c).arrAt_eq_of_cover 7 (result V c) (fun t _ => flushed_eq V c t) cover

end Cert.KernelIdeal.EdgeValue

end
-- ==== Proof.KernelIdeal.NodeValue.lean ====
/-
  What the node network's pallas_call leaves in its result array, at the extended reals and for any contents `V` of the
  core's arrays at the region's entry: the three-layer perceptron of the WHOLE first operand, row by row. Grid point
  `t` writes back rows `5000·t … 5000·t + 4999`; the body's arithmetic on the block of those rows is the perceptron of
  the block (`Payload.lean`), a row of the block is the corresponding row of the array, and a row of the perceptron's
  result depends only on that row of its input; the 20 blocks cover the array.
-/
import proofs.«136190_j64424509440353_1_alg».proof.Proof.KernelIdeal.NodeBody
import proofs.«136190_j64424509440353_1_alg».proof.Proof.KernelIdeal.Payload
import Idealize.ShloMosaic.Lib.Pipeline.Value

set_option maxRecDepth 16384

noncomputable section

namespace Cert.KernelIdeal.NodeValue

open Cert.KernelIdeal Cert.KernelIdeal.Gen
open Idealize.ShloMosaic Idealize.ShloMosaic.TcCoe Idealize.ShloMosaic.ValueIdx Idealize.SL.Sem Cert.Mlp
open Idealize.ShloMosaic.Pipeline (Dat Cfg Window)

variable (V : (c : Dev nD) → (b : Ref sig .tc) → Buf (Elt Ideal) ((c : Thread nD τ).loc b))

/-- The result as one function of the arrays the region finds: the perceptron of the first operand's rows, with the
    three weight matrices and the three bias rows. -/
def result (c : Dev nD) : Vec Ideal S100000x32 .f32 :=
  mlp (V c main_v22 : Vec Ideal S100000x64 .f32) (V c main_arg10 : Vec Ideal S64x64 .f32) (biasRow (V c main_v23 : Vec Ideal S1x64 .f32))
    (V c main_arg12 : Vec Ideal S64x64 .f32) (biasRow (V c main_v24 : Vec Ideal S1x64 .f32)) (V c main_arg14 : Vec Ideal S64x32 .f32) (biasRow (V c main_v25 : Vec Ideal S1x32 .f32))

/-! ## The index maps -/

/-- The zero offsets, however spelt. -/
theorem hz : (![0, 0] : Fin 2 → Nat) = fun _ => 0 := funext fun a => by fin_cases a <;> rfl

/-- The windows' index maps at every grid point: the first operand's and the result's block index is (t, 0), the six
    weight and bias windows' is (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## The input blocks, read off the arrays -/

/-- Row `y 0` of the first operand's block at point `t` is row `5000·t + y 0` of the array. -/
theorem block0_apply (c : Dev nD) (t : Fin cfg1.N) (y : S5000x64.Idx) (i : S100000x64.Idx)
    (h0 : (i 0).val = 5000 * t.val + (y 0).val) (h1 : (i 1).val = (y 1).val) :
    (Node.blockAt V c 0 t : Vec Ideal S5000x64 .f32) y = (V c main_v22 : Vec Ideal S100000x64 .f32) i := by
  obtain ⟨e0, e1, -⟩ := idx_facts t
  show V c main_v22 (((cfg1.win 0).blk t).view.emb y) = V c main_v22 i
  congr 1
  funext a; apply Fin.ext
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- Window 1's block index is (0, 0) at every point and its block is the whole array: the block is the first weight matrix. -/
theorem block1_eq (c : Dev nD) (t : Fin cfg1.N) :
    (Node.blockAt V c 1 t : Vec Ideal S64x64 .f32) = (V c main_arg10 : Vec Ideal S64x64 .f32) := by
  obtain ⟨-, -, e0, e1, -⟩ := idx_facts t
  funext y
  show V c main_arg10 (((cfg1.win 1).blk t).view.emb y) = V c main_arg10 y
  congr 1
  funext a; apply Fin.ext
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- Window 2's block index is (0, 0) at every point and its block is the whole array: the block is the first bias row. -/
theorem block2_eq (c : Dev nD) (t : Fin cfg1.N) :
    (Node.blockAt V c 2 t : Vec Ideal S1x64 .f32) = (V c main_v23 : Vec Ideal S1x64 .f32) := by
  obtain ⟨-, -, -, -, e0, e1, -⟩ := idx_facts t
  funext y
  show V c main_v23 (((cfg1.win 2).blk t).view.emb y) = V c main_v23 y
  congr 1
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- Window 3's block index is (0, 0) at every point and its block is the whole array: the block is the second weight matrix. -/
theorem block3_eq (c : Dev nD) (t : Fin cfg1.N) :
    (Node.blockAt V c 3 t : Vec Ideal S64x64 .f32) = (V c main_arg12 : Vec Ideal S64x64 .f32) := by
  obtain ⟨-, -, -, -, -, -, e0, e1, -⟩ := idx_facts t
  funext y
  show V c main_arg12 (((cfg1.win 3).blk t).view.emb y) = V c main_arg12 y
  congr 1
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- Window 4's block index is (0, 0) at every point and its block is the whole array: the block is the second bias row. -/
theorem block4_eq (c : Dev nD) (t : Fin cfg1.N) :
    (Node.blockAt V c 4 t : Vec Ideal S1x64 .f32) = (V c main_v24 : Vec Ideal S1x64 .f32) := by
  obtain ⟨-, -, -, -, -, -, -, -, e0, e1, -⟩ := idx_facts t
  funext y
  show V c main_v24 (((cfg1.win 4).blk t).view.emb y) = V c main_v24 y
  congr 1
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- Window 5's block index is (0, 0) at every point and its block is the whole array: the block is the third weight matrix. -/
theorem block5_eq (c : Dev nD) (t : Fin cfg1.N) :
    (Node.blockAt V c 5 t : Vec Ideal S64x32 .f32) = (V c main_arg14 : Vec Ideal S64x32 .f32) := by
  obtain ⟨-, -, -, -, -, -, -, -, -, -, e0, e1, -⟩ := idx_facts t
  funext y
  show V c main_arg14 (((cfg1.win 5).blk t).view.emb y) = V c main_arg14 y
  congr 1
  funext a; apply Fin.ext
  match a with
  | ⟨0, _⟩ => show win1_5.index t (0 : Fin 2) * 64 + 1 * (y 0).val = (y 0).val; omega
  | ⟨1, _⟩ => show win1_5.index t (1 : Fin 2) * 32 + 1 * (y 1).val = (y 1).val; omega

/-- Window 6's block index is (0, 0) at every point and its block is the whole array: the block is the third bias row. -/
theorem block6_eq (c : Dev nD) (t : Fin cfg1.N) :
    (Node.blockAt V c 6 t : Vec Ideal S1x32 .f32) = (V c main_v25 : Vec Ideal S1x32 .f32) := by
  obtain ⟨-, -, -, -, -, -, -, -, -, -, -, -, e0, e1, -⟩ := idx_facts t
  funext y
  show V c main_v25 (((cfg1.win 6).blk t).view.emb y) = V c main_v25 y
  congr 1
  funext a; apply Fin.ext
  match a with
  | ⟨0, _⟩ => show win1_6.index t (0 : Fin 2) * 1 + 1 * (y 0).val = (y 0).val; omega
  | ⟨1, _⟩ => show win1_6.index t (1 : Fin 2) * 32 + 1 * (y 1).val = (y 1).val; omega

/-! ## One block of the perceptron -/

/-- The perceptron of a block of 5000 rows that sit at rows `5000·n …` of an array, at row `y 0`, is the perceptron of
    the array at row `5000·n + y 0`: a row of the result depends on that row of the input only. -/
theorem mlp_block (X : Vec Ideal S5000x64 .f32) (A : Vec Ideal S100000x64 .f32)
    (w1 : Vec Ideal S64x64 .f32) (b1 : Fin 64 → EReal) (w2 : Vec Ideal S64x64 .f32) (b2 : Fin 64 → EReal)
    (w3 : Vec Ideal S64x32 .f32) (b3 : Fin 32 → EReal) (n : ℕ)
    (hX : ∀ (y : S5000x64.Idx) (i : S100000x64.Idx), (i 0).val = 5000 * n + (y 0).val → (i 1).val = (y 1).val → X y = A i)
    (y : S5000x32.Idx) (i : S100000x32.Idx) (h0 : (i 0).val = 5000 * n + (y 0).val) (h1 : (i 1).val = (y 1).val) :
    mlp X w1 b1 w2 b2 w3 b3 y = mlp A w1 b1 w2 b2 w3 b3 i :=
  mlp_congr_row X A w1 b1 w2 b2 w3 b3 y i (fun k => hX _ _ h0 rfl) (Fin.ext h1.symm)

/-! ## What a point writes back -/

/-- Grid point `t` writes back block `t` of `result`. -/
theorem flushed_eq (c : Dev nD) (t : Fin cfg1.N) :
    (Node.dat (F := Ideal) V c).flushed 7 t = ((cfg1.win 7).blk t).view.read (Elt Ideal) (result V c) := by
  show (cfg1.win 7).cut (grid1.coords t) ((Node.dat (F := Ideal) V c).after 7 t) = _
  rw [Node.after_7]
  unfold Node.outBlock
  rw [View.canon_unit_zero hz]
  simp only [View.ld_unit_zero (S := S5000x64) hz, View.ld_unit_zero (S := S64x64) hz, View.ld_unit_zero (S := S1x64) hz,
    View.ld_unit_zero (S := S64x64) hz, View.ld_unit_zero (S := S64x32) hz, View.ld_unit_zero (S := S1x32) hz]
  rw [Payload.node_payload, block1_eq, block2_eq, block3_eq, block4_eq, block5_eq, block6_eq]
  obtain ⟨-, -, -, -, -, -, -, -, -, -, -, -, -, -, e0, e1⟩ := idx_facts t
  funext j
  refine mlp_block (Node.blockAt V c 0 t) (V c main_v22) _ _ _ _ _ _ t.val (block0_apply V c t) _ (((cfg1.win 7).blk t).view.emb j) ?_ ?_
  · show win1_7.index t (0 : Fin 2) * 5000 + 1 * (j 0).val = 5000 * t.val + (j 0).val; omega
  · show win1_7.index t (1 : Fin 2) * 32 + 1 * (j 1).val = (j 1).val; omega

/-! ## The blocks cover the array -/

/-- An index of the result array is in point `t`'s block iff each coordinate is in the block's range on its axis. -/
theorem mem_blk (t : Fin cfg1.N) (i : S100000x32.Idx) :
    i ∈ ((cfg1.win 7).blk t).view.set ↔ ∀ a : Fin 2, win1_7.index t a * S5000x32.size a ≤ (i a).val ∧ (i a).val < win1_7.index t a * S5000x32.size a + S5000x32.size a := by
  show i ∈ ((View.whole main_v26).slice (win1_7.rect t)).set ↔ _
  rw [View.set_slice_whole, Rect.mem_set_unit]
  exact Iff.rfl

/-- Row `r` of the result is in the block of point `r / 5000`. -/
theorem cover (i : S100000x32.Idx) : ∃ t : Fin cfg1.N, (cfg1.win 7).flush t = true ∧ i ∈ ((cfg1.win 7).blk t).view.set := by
  have hi0 : (i 0).val < 100000 := (i 0).isLt
  have hi1 : (i 1).val < 32 := (i 1).isLt
  have hN : cfg1.N = 20 := N_1
  have ht : (i 0).val / 5000 < cfg1.N := by rw [hN]; omega
  obtain ⟨-, -, -, -, -, -, -, -, -, -, -, -, -, -, e0, e1⟩ := idx_facts ⟨(i 0).val / 5000, ht⟩
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, ht⟩ (1 : Fin 2) * 32 ≤ (i 1).val ∧ (i 1).val < win1_7.index ⟨(i 0).val / 5000, ht⟩ (1 : Fin 2) * 32 + 32
    rw [e1]; omega

/-- After the last grid point the result array holds `result`. -/
theorem array_eq (c : Dev nD) : (Node.dat (F := Ideal) V c).arrAt 7 cfg1.N = result V c :=
  (Node.dat (F := Ideal) V c).arrAt_eq_of_cover 7 (result V c) (fun t _ => flushed_eq V c t) cover

end Cert.KernelIdeal.NodeValue

end
-- ==== Proof.LibNary3.lean ====
/-
  A host operation over a LITERAL family of three references (a `stablehlo.concatenate` of three operands), read after it
  ran: its result buffer holds the operation's function of the three operands' contents, each taken AT ITS OWN
  reference. The general statement for a family `xs` gives the contents as `fun k => F (xs k)`, under whose binder the
  reference `![x, a, b] k` is no literal, so that reading a straight-line host stretch back operation by operation
  stops there; with the three contents spelt out (`Fin.cons` at the literals `0, 1, 2`) it goes on. The library states
  this for four references; this is the same for three, with the tactic that reads a host stretch back extended by it.
-/
import Idealize.ShloMosaic.Lib.StableHlo.Run

namespace Cert.LibNary3

open Idealize.ShloMosaic Idealize.ShloMosaic.StableHlo Idealize.SL.Sem

variable {τ : Topo} {sig : RefSig} {Val : EltTy → Type}
variable {x a b y : Ref sig .tc}

/-- After `nary ![x, a, b] y f` the buffer `y` holds `f` of the three operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same restated for `simp`, the result reference un-indexed, as the library restates its own result lemmas. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Reads a goal `after ops V (Proc.devRef .tc r) = …` back for a literal list of host operations over literal
    references, as the library's tactic does, a three-operand `nary` included: the fold unfolded, then each operation's
    result at its own result buffer rewritten to its function's value and at any other reference to what was there
    before, outermost first, until no rule applies. -/
macro "after_results3" : tactic =>
  `(tactic| (simp only [StableHlo.after_cons, StableHlo.after_nil]
             repeat (first
               | rw [StableHlo.nullary_result] | rw [StableHlo.unary_result] | rw [StableHlo.binary_result] | rw [StableHlo.ternary_result] | rw [StableHlo.quaternary_result]
               | rw [StableHlo.reshape_result] | rw [StableHlo.binaryIndexed_result] | rw [Cert.LibNary3.nary3_result] | rw [StableHlo.nary4_result] | rw [StableHlo.nary_result] | rw [StableHlo.unaryIndexed_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.quaternary_result_ne]; rotate_left; decide)
               | (rw [StableHlo.reshape_result_ne]; rotate_left; decide)
               | (rw [StableHlo.binaryIndexed_result_ne]; rotate_left; decide)
               | (rw [StableHlo.nary_result_ne]; rotate_left; decide)
               | (rw [StableHlo.unaryIndexed_result_ne]; rotate_left; decide))))

/-- The same read-back as ONE `simp` pass, each shared subterm visited once: for the longer stretches. -/
macro "after_results3_simp" : tactic =>
  `(tactic| (simp (disch := decide) only [StableHlo.after_cons, StableHlo.after_nil,
      StableHlo.nullary_result', StableHlo.unary_result', StableHlo.binary_result', StableHlo.ternary_result', StableHlo.quaternary_result',
      StableHlo.reshape_result', Cert.LibNary3.nary3_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne',
      StableHlo.reshape_result_ne', StableHlo.nary_result_ne', StableHlo.unaryIndexed_result_ne', StableHlo.binaryIndexed_result_ne']))

end Cert.LibNary3
-- ==== Proof.KernelIdeal.Results.lean ====
/-
  What the two kernel calls are handed, in terms of the launch memory and in the reference's own words. The host
  operations before the edge call build the edge network's input — for every edge its source node's features, its
  destination node's features and its own, side by side — exactly as the reference builds its stage `val_main_v14`:
  the same gathers over the same normalised indices, the same concatenation. The weights reach the call untouched,
  and each bias vector reshaped to one row, so that read as a function of the column it is the vector. Between the
  calls the host scatter-adds the edge call's result into node buckets and sets it beside the node features: the
  reference's stage `val_main_v33` with the edge call's result in the place of the reference's own edge result.
-/
import proofs.«136190_j64424509440353_1_alg».proof.Proof.KernelIdeal.Run
import proofs.«136190_j64424509440353_1_alg».proof.Proof.Gen.ReferenceIdeal.Read
import proofs.«136190_j64424509440353_1_alg».proof.Proof.Mlp
import proofs.«136190_j64424509440353_1_alg».proof.Proof.LibNary3
import Idealize.ShloMosaic.Lib.Pipeline.Value
import Idealize.ShloMosaic.Lib.StableHlo.Run

set_option maxRecDepth 16384

noncomputable section

namespace Cert.KernelIdeal.Results

open Cert.KernelIdeal Cert.KernelIdeal.Gen Cert.KernelIdeal.Run
open Idealize.ShloMosaic Idealize.ShloMosaic.TcCoe Idealize.ShloMosaic.ValueIdx Idealize.SL.Sem Cert.Mlp Cert.LibNary3

variable {F : FTy → Type} [FloatOps F]
variable (m : (ℓ : Loc nD τ sig) → Buf (Elt F) ℓ)

/-! ## The edge call's operands -/

set_option maxHeartbeats 4000000 in
/-- The edge network's input is the reference's. -/
theorem edge_input (c : Dev nD) :
    (edgeEntry m c main_v14 : (⟨S1600000x96, .f32⟩ : BufTy).Contents (Elt F))
      = Cert.ReferenceIdeal.Read.val_main_v14 (F := F) (m ((c : Thread nD τ).loc main_arg0)) (m ((c : Thread nD τ).loc main_arg1)) (m ((c : Thread nD τ).loc main_arg2)) (m ((c : Thread nD τ).loc main_arg3)) := by
  show StableHlo.after hostOps0 (atLaunch m c) (Proc.devRef .tc main_v14) = _
  after_results3_simp
  rfl

/-- A buffer the first host stretch does not write reaches the edge call as launched. -/
theorem edge_arg (c : Dev nD) (b : Ref sig .tc) (h : b ∉ hostOps0_W) : edgeEntry m c b = m ((c : Thread nD τ).loc b) :=
  StableHlo.after_of_writes_sub hostOps0 _ hostOps0_writes h

set_option maxHeartbeats 4000000 in
theorem edge_bias1 (c : Dev nD) : (edgeEntry m c main_v15 : (⟨S1x64, .f32⟩ : BufTy).Contents (Elt F))
    = shapeCast S1x64 (m ((c : Thread nD τ).loc main_arg5)) shapeCasts_S64_S1x64 := by
  show StableHlo.after hostOps0 (atLaunch m c) (Proc.devRef .tc main_v15) = _
  after_results3_simp
  rfl
set_option maxHeartbeats 4000000 in
theorem edge_bias2 (c : Dev nD) : (edgeEntry m c main_v16 : (⟨S1x64, .f32⟩ : BufTy).Contents (Elt F))
    = shapeCast S1x64 (m ((c : Thread nD τ).loc main_arg7)) shapeCasts_S64_S1x64 := by
  show StableHlo.after hostOps0 (atLaunch m c) (Proc.devRef .tc main_v16) = _
  after_results3_simp
  rfl
set_option maxHeartbeats 4000000 in
theorem edge_bias3 (c : Dev nD) : (edgeEntry m c main_v17 : (⟨S1x32, .f32⟩ : BufTy).Contents (Elt F))
    = shapeCast S1x32 (m ((c : Thread nD τ).loc main_arg9)) shapeCasts_S32_S1x32 := by
  show StableHlo.after hostOps0 (atLaunch m c) (Proc.devRef .tc main_v17) = _
  after_results3_simp
  rfl

/-! ## The node call's operands -/

/-- The node network's input is the reference's stage with the edge call's result `u` in the place of the
    reference's edge result: the node features beside the scatter-add of `u` into the destination nodes' buckets. -/
def nodeInput (x0 : (⟨S100000x32, .f32⟩ : BufTy).Contents (Elt F)) (x3 : (⟨S1600000, .i32⟩ : BufTy).Contents (Elt F))
    (u : (⟨S1600000x32, .f32⟩ : BufTy).Contents (Elt F)) : (⟨S100000x64, .f32⟩ : BufTy).Contents (Elt F) :=
  concatenate S100000x64 1 [⟨S100000x32, x0⟩, ⟨S100000x32, Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 x3) u⟩] concatenates_S100000x32_S100000x32_S100000x64_d1

set_option maxHeartbeats 4000000 in
theorem node_input (c : Dev nD) :
    (nodeEntry m c main_v22 : (⟨S100000x64, .f32⟩ : BufTy).Contents (Elt F))
      = nodeInput (m ((c : Thread nD τ).loc main_arg0)) (m ((c : Thread nD τ).loc main_arg3)) (atEdgeExit m c (Proc.devRef .tc main_v18)) := by
  show StableHlo.after hostOps1 (atEdgeExit m c) (Proc.devRef .tc main_v22) = _
  after_results3
  rw [edge_keeps m c main_arg0 (by decide), edge_keeps m c main_arg3 (by decide)]
  rw [show atEdgeEntry m c (Proc.devRef .tc main_arg0) = m ((c : Thread nD τ).loc main_arg0) from edge_arg m c main_arg0 (by decide),
    show atEdgeEntry m c (Proc.devRef .tc main_arg3) = m ((c : Thread nD τ).loc main_arg3) from edge_arg m c main_arg3 (by decide)]
  rfl

/-- With the reference's own edge result in that place it IS the reference's stage. -/
theorem nodeInput_ref (x0 : (⟨S100000x32, .f32⟩ : BufTy).Contents (Elt F)) (x1 : (⟨S1600000x32, .f32⟩ : BufTy).Contents (Elt F))
    (x2 x3 : (⟨S1600000, .i32⟩ : BufTy).Contents (Elt F)) (x4 : (⟨S96x64, .f32⟩ : BufTy).Contents (Elt F)) (x5 : (⟨S64, .f32⟩ : BufTy).Contents (Elt F))
    (x6 : (⟨S64x64, .f32⟩ : BufTy).Contents (Elt F)) (x7 : (⟨S64, .f32⟩ : BufTy).Contents (Elt F)) (x8 : (⟨S64x32, .f32⟩ : BufTy).Contents (Elt F))
    (x9 : (⟨S32, .f32⟩ : BufTy).Contents (Elt F)) :
    nodeInput x0 x3 (Cert.ReferenceIdeal.Read.val_main_v29 (F := F) x0 x1 x2 x3 x4 x5 x6 x7 x8 x9)
      = Cert.ReferenceIdeal.Read.val_main_v33 (F := F) x0 x1 x2 x3 x4 x5 x6 x7 x8 x9 := rfl

/-- A buffer neither host stretch writes, and that is not the edge call's result, reaches the node call as launched. -/
theorem node_arg (c : Dev nD) (b : Ref sig .tc) (h0 : b ∉ hostOps0_W) (h1 : b ∉ hostOps1_W) (he : b ≠ main_v18) :
    nodeEntry m c b = m ((c : Thread nD τ).loc b) :=
  (StableHlo.after_of_writes_sub hostOps1 _ hostOps1_writes h1).trans <| (edge_keeps m c b he).trans (edge_arg m c b h0)

set_option maxHeartbeats 4000000 in
theorem node_bias1 (c : Dev nD) : (nodeEntry m c main_v23 : (⟨S1x64, .f32⟩ : BufTy).Contents (Elt F))
    = shapeCast S1x64 (m ((c : Thread nD τ).loc main_arg11)) shapeCasts_S64_S1x64 := by
  show StableHlo.after hostOps1 (atEdgeExit m c) (Proc.devRef .tc main_v23) = _
  after_results3
  rw [edge_keeps m c main_arg11 (by decide),
    show atEdgeEntry m c (Proc.devRef .tc main_arg11) = m ((c : Thread nD τ).loc main_arg11) from edge_arg m c main_arg11 (by decide)]
  rfl
set_option maxHeartbeats 4000000 in
theorem node_bias2 (c : Dev nD) : (nodeEntry m c main_v24 : (⟨S1x64, .f32⟩ : BufTy).Contents (Elt F))
    = shapeCast S1x64 (m ((c : Thread nD τ).loc main_arg13)) shapeCasts_S64_S1x64 := by
  show StableHlo.after hostOps1 (atEdgeExit m c) (Proc.devRef .tc main_v24) = _
  after_results3
  rw [edge_keeps m c main_arg13 (by decide),
    show atEdgeEntry m c (Proc.devRef .tc main_arg13) = m ((c : Thread nD τ).loc main_arg13) from edge_arg m c main_arg13 (by decide)]
  rfl
set_option maxHeartbeats 4000000 in
theorem node_bias3 (c : Dev nD) : (nodeEntry m c main_v25 : (⟨S1x32, .f32⟩ : BufTy).Contents (Elt F))
    = shapeCast S1x32 (m ((c : Thread nD τ).loc main_arg15)) shapeCasts_S32_S1x32 := by
  show StableHlo.after hostOps1 (atEdgeExit m c) (Proc.devRef .tc main_v25) = _
  after_results3
  rw [edge_keeps m c main_arg15 (by decide),
    show atEdgeEntry m c (Proc.devRef .tc main_arg15) = m ((c : Thread nD τ).loc main_arg15) from edge_arg m c main_arg15 (by decide)]
  rfl

/-! ## A bias vector reshaped to one row -/

/-- A vector of length `N` reshaped to `1 × N` and read along its one row is the vector. -/
theorem biasRow_reshape {N : ℕ} (b : (⟨1, ![N]⟩ : Shape).Idx → EReal) (h : (⟨1, ![N]⟩ : Shape).ShapeCasts ⟨2, ![1, N]⟩) :
    biasRow (shapeCast (⟨2, ![1, N]⟩ : Shape) b h) = biasVec b := by
  funext j
  show shapeCast (⟨1 + 1, Matrix.vecCons 1 ![N]⟩ : Shape) b h (ix2 (0 : Fin 1) j) = b (ix1 j)
  rw [shapeCast_addUnit_apply]
  exact congrArg b (funext fun a => by match a with | ⟨0, _⟩ => rfl)

end Cert.KernelIdeal.Results

end
-- ==== Proof.Reference.Value.lean ====
/-
  The reference's two results, at the extended reals, as the perceptron of `Mlp.lean`: its edge result (stage
  `val_main_v29`) is the perceptron `96 → 64 → 64 → 32` of the concatenated edge input (stage `val_main_v14`, kept as it
  is), and its node result (stage `val_main_v48`) the perceptron `64 → 64 → 64 → 32` of the concatenated node input
  (stage `val_main_v33`, kept as it is). Each `dot_general` is the sum of products over the contracted index, each
  bias is broadcast down the rows, each ReLU is `max · 0`.
-/
import proofs.«136190_j64424509440353_1_alg».proof.Proof.Gen.ReferenceIdeal.Read
import proofs.«136190_j64424509440353_1_alg».proof.Proof.Mlp

noncomputable section

namespace Cert.ReferenceIdeal.RefValue

open Cert.ReferenceIdeal Cert.ReferenceIdeal.Gen Cert.ReferenceIdeal.Read
open Idealize.ShloMosaic Idealize.ShloMosaic.ValueIdx Cert.Mlp

open scoped BigOperators

/-- One layer as the reference writes it, read at an index: the sum of products over the contracted index, plus the
    broadcast bias, clipped below at the zero constant, is the layer of `Mlp.lean` once the composed indices are named
    by the row and the column of the result's index. -/
theorem layer_at {R K N : ℕ} (y : (⟨2, ![R, K]⟩ : Shape).Idx → EReal) (w : (⟨2, ![K, N]⟩ : Shape).Idx → EReal)
    (b : (⟨1, ![N]⟩ : Shape).Idx → EReal) (i : (⟨2, ![R, N]⟩ : Shape).Idx)
    (li : Fin K → (⟨2, ![R, K]⟩ : Shape).Idx) (ri : Fin K → (⟨2, ![K, N]⟩ : Shape).Idx) (bi : (⟨1, ![N]⟩ : Shape).Idx)
    (hl : ∀ k, li k = ix2 (row i) k) (hr : ∀ k, ri k = ix2 k (col i)) (hb : bi = ix1 (col i)) :
    max ((∑ k : Fin K, y (li k) * w (ri k)) + b bi) (Ideal.ofBits .f32 0x00000000#32) = dense y w (biasVec b) i := by
  unfold dense
  rw [Ideal.ofBits_zero_f32, hb]
  exact congrArg (fun s => max (s + b (ix1 (col i))) 0) (Finset.sum_congr rfl fun k _ => by rw [hl k, hr k])

/-- The first edge layer, `96 → 64`, of the concatenated edge input. -/
theorem edge_layer1 (x0 : (⟨S100000x32, .f32⟩ : BufTy).Contents (Elt Ideal)) (x1 : (⟨S1600000x32, .f32⟩ : BufTy).Contents (Elt Ideal)) (x2 x3 : (⟨S1600000, .i32⟩ : BufTy).Contents (Elt Ideal)) (x4 : (⟨S96x64, .f32⟩ : BufTy).Contents (Elt Ideal)) (x5 : (⟨S64, .f32⟩ : BufTy).Contents (Elt Ideal)) :
    val_main_v19 (F := Ideal) x0 x1 x2 x3 x4 x5 = dense (val_main_v14 (F := Ideal) x0 x1 x2 x3) x4 (biasVec x5) := by
  funext i
  rw [val_main_v19_apply, val_main_v18_apply, val_main_v15_apply, val_main_v17_apply, val_main_v16_apply,
    val_main_call0_v0_apply, val_main_call0_cst_apply]
  generalize val_main_v14 (F := Ideal) x0 x1 x2 x3 = y
  exact layer_at y x4 x5 i _ _ _
    (fun k => funext fun a => Fin.ext (by match a with | ⟨0, _⟩ => rfl | ⟨1, _⟩ => rfl))
    (fun k => funext fun a => Fin.ext (by match a with | ⟨0, _⟩ => rfl | ⟨1, _⟩ => rfl))
    (funext fun a => Fin.ext (by match a with | ⟨0, _⟩ => rfl))

/-- The second edge layer, `64 → 64`, of the first layer's result. -/
theorem edge_layer2 (x0 : (⟨S100000x32, .f32⟩ : BufTy).Contents (Elt Ideal)) (x1 : (⟨S1600000x32, .f32⟩ : BufTy).Contents (Elt Ideal)) (x2 x3 : (⟨S1600000, .i32⟩ : BufTy).Contents (Elt Ideal)) (x4 : (⟨S96x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v24 (F := Ideal) x0 x1 x2 x3 x4 x5 x6 x7 = dense (val_main_v19 (F := Ideal) x0 x1 x2 x3 x4 x5) x6 (biasVec x7) := by
  funext i
  rw [val_main_v24_apply, val_main_v23_apply, val_main_v20_apply, val_main_v22_apply, val_main_v21_apply,
    val_main_call1_v0_apply, val_main_call1_cst_apply]
  generalize val_main_v19 (F := Ideal) x0 x1 x2 x3 x4 x5 = y
  exact layer_at y x6 x7 i _ _ _
    (fun k => funext fun a => Fin.ext (by match a with | ⟨0, _⟩ => rfl | ⟨1, _⟩ => rfl))
    (fun k => funext fun a => Fin.ext (by match a with | ⟨0, _⟩ => rfl | ⟨1, _⟩ => rfl))
    (funext fun a => Fin.ext (by match a with | ⟨0, _⟩ => rfl))

/-- The third edge layer, `64 → 32`, of the second layer's result. -/
theorem edge_layer3 (x0 : (⟨S100000x32, .f32⟩ : BufTy).Contents (Elt Ideal)) (x1 : (⟨S1600000x32, .f32⟩ : BufTy).Contents (Elt Ideal)) (x2 x3 : (⟨S1600000, .i32⟩ : BufTy).Contents (Elt Ideal)) (x4 : (⟨S96x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) :
    val_main_v29 (F := Ideal) x0 x1 x2 x3 x4 x5 x6 x7 x8 x9 = dense (val_main_v24 (F := Ideal) x0 x1 x2 x3 x4 x5 x6 x7) x8 (biasVec x9) := by
  funext i
  rw [val_main_v29_apply, val_main_v28_apply, val_main_v25_apply, val_main_v27_apply, val_main_v26_apply,
    val_main_call2_v0_apply, val_main_call2_cst_apply]
  generalize val_main_v24 (F := Ideal) x0 x1 x2 x3 x4 x5 x6 x7 = y
  exact layer_at y x8 x9 i _ _ _
    (fun k => funext fun a => Fin.ext (by match a with | ⟨0, _⟩ => rfl | ⟨1, _⟩ => rfl))
    (fun k => funext fun a => Fin.ext (by match a with | ⟨0, _⟩ => rfl | ⟨1, _⟩ => rfl))
    (funext fun a => Fin.ext (by match a with | ⟨0, _⟩ => rfl))

/-- The edge result is the perceptron of the edge input. -/
theorem edge_eq (x0 : (⟨S100000x32, .f32⟩ : BufTy).Contents (Elt Ideal)) (x1 : (⟨S1600000x32, .f32⟩ : BufTy).Contents (Elt Ideal)) (x2 x3 : (⟨S1600000, .i32⟩ : BufTy).Contents (Elt Ideal)) (x4 : (⟨S96x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) :
    val_main_v29 (F := Ideal) x0 x1 x2 x3 x4 x5 x6 x7 x8 x9
      = mlp (val_main_v14 (F := Ideal) x0 x1 x2 x3) x4 (biasVec x5) x6 (biasVec x7) x8 (biasVec x9) := by
  unfold mlp
  rw [edge_layer3, edge_layer2, edge_layer1]

/-- The first node layer, `64 → 64`, of the concatenated node input. -/
theorem node_layer1 (x0 : (⟨S100000x32, .f32⟩ : BufTy).Contents (Elt Ideal)) (x1 : (⟨S1600000x32, .f32⟩ : BufTy).Contents (Elt Ideal)) (x2 x3 : (⟨S1600000, .i32⟩ : BufTy).Contents (Elt Ideal)) (x4 : (⟨S96x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S64x64, .f32⟩ : BufTy).Contents (Elt Ideal)) (x11 : (⟨S64, .f32⟩ : BufTy).Contents (Elt Ideal)) :
    val_main_v38 (F := Ideal) x0 x1 x2 x3 x4 x5 x6 x7 x8 x9 x10 x11 = dense (val_main_v33 (F := Ideal) x0 x1 x2 x3 x4 x5 x6 x7 x8 x9) x10 (biasVec x11) := by
  funext i
  rw [val_main_v38_apply, val_main_v37_apply, val_main_v34_apply, val_main_v36_apply, val_main_v35_apply,
    val_main_call3_v0_apply, val_main_call3_cst_apply]
  generalize val_main_v33 (F := Ideal) x0 x1 x2 x3 x4 x5 x6 x7 x8 x9 = y
  exact layer_at y x10 x11 i _ _ _
    (fun k => funext fun a => Fin.ext (by match a with | ⟨0, _⟩ => rfl | ⟨1, _⟩ => rfl))
    (fun k => funext fun a => Fin.ext (by match a with | ⟨0, _⟩ => rfl | ⟨1, _⟩ => rfl))
    (funext fun a => Fin.ext (by match a with | ⟨0, _⟩ => rfl))

/-- The second node layer, `64 → 64`, of the first layer's result. -/
theorem node_layer2 (x0 : (⟨S100000x32, .f32⟩ : BufTy).Contents (Elt Ideal)) (x1 : (⟨S1600000x32, .f32⟩ : BufTy).Contents (Elt Ideal)) (x2 x3 : (⟨S1600000, .i32⟩ : BufTy).Contents (Elt Ideal)) (x4 : (⟨S96x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) :
    val_main_v43 (F := Ideal) x0 x1 x2 x3 x4 x5 x6 x7 x8 x9 x10 x11 x12 x13 = dense (val_main_v38 (F := Ideal) x0 x1 x2 x3 x4 x5 x6 x7 x8 x9 x10 x11) x12 (biasVec x13) := by
  funext i
  rw [val_main_v43_apply, val_main_v42_apply, val_main_v39_apply, val_main_v41_apply, val_main_v40_apply,
    val_main_call4_v0_apply, val_main_call4_cst_apply]
  generalize val_main_v38 (F := Ideal) x0 x1 x2 x3 x4 x5 x6 x7 x8 x9 x10 x11 = y
  exact layer_at y x12 x13 i _ _ _
    (fun k => funext fun a => Fin.ext (by match a with | ⟨0, _⟩ => rfl | ⟨1, _⟩ => rfl))
    (fun k => funext fun a => Fin.ext (by match a with | ⟨0, _⟩ => rfl | ⟨1, _⟩ => rfl))
    (funext fun a => Fin.ext (by match a with | ⟨0, _⟩ => rfl))

/-- The third node layer, `64 → 32`, of the second layer's result. -/
theorem node_layer3 (x0 : (⟨S100000x32, .f32⟩ : BufTy).Contents (Elt Ideal)) (x1 : (⟨S1600000x32, .f32⟩ : BufTy).Contents (Elt Ideal)) (x2 x3 : (⟨S1600000, .i32⟩ : BufTy).Contents (Elt Ideal)) (x4 : (⟨S96x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x32, .f32⟩ : BufTy).Contents (Elt Ideal)) (x15 : (⟨S32, .f32⟩ : BufTy).Contents (Elt Ideal)) :
    val_main_v48 (F := Ideal) x0 x1 x2 x3 x4 x5 x6 x7 x8 x9 x10 x11 x12 x13 x14 x15 = dense (val_main_v43 (F := Ideal) x0 x1 x2 x3 x4 x5 x6 x7 x8 x9 x10 x11 x12 x13) x14 (biasVec x15) := by
  funext i
  rw [val_main_v48_apply, val_main_v47_apply, val_main_v44_apply, val_main_v46_apply, val_main_v45_apply,
    val_main_call5_v0_apply, val_main_call5_cst_apply]
  generalize val_main_v43 (F := Ideal) x0 x1 x2 x3 x4 x5 x6 x7 x8 x9 x10 x11 x12 x13 = y
  exact layer_at y x14 x15 i _ _ _
    (fun k => funext fun a => Fin.ext (by match a with | ⟨0, _⟩ => rfl | ⟨1, _⟩ => rfl))
    (fun k => funext fun a => Fin.ext (by match a with | ⟨0, _⟩ => rfl | ⟨1, _⟩ => rfl))
    (funext fun a => Fin.ext (by match a with | ⟨0, _⟩ => rfl))

/-- The node result is the perceptron of the node input. -/
theorem node_eq (x0 : (⟨S100000x32, .f32⟩ : BufTy).Contents (Elt Ideal)) (x1 : (⟨S1600000x32, .f32⟩ : BufTy).Contents (Elt Ideal)) (x2 x3 : (⟨S1600000, .i32⟩ : BufTy).Contents (Elt Ideal)) (x4 : (⟨S96x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x32, .f32⟩ : BufTy).Contents (Elt Ideal)) (x15 : (⟨S32, .f32⟩ : BufTy).Contents (Elt Ideal)) :
    val_main_v48 (F := Ideal) x0 x1 x2 x3 x4 x5 x6 x7 x8 x9 x10 x11 x12 x13 x14 x15
      = mlp (val_main_v33 (F := Ideal) x0 x1 x2 x3 x4 x5 x6 x7 x8 x9) x10 (biasVec x11) x12 (biasVec x13) x14 (biasVec x15) := by
  unfold mlp
  rw [node_layer3, node_layer2, node_layer1]

end Cert.ReferenceIdeal.RefValue

end
-- ==== Proof.Algebraic.lean ====
/-
  The two programs compute the same two arrays, at the extended reals. The kernel's run leaves in its two result
  buffers the two pipelines' final output arrays (`Run.lean`); each is the three-layer perceptron of its call's whole
  first operand (`EdgeValue.lean`, `NodeValue.lean`); those operands, the weights and the biases are the reference's
  own stages of the launch memory (`Results.lean`); and the reference's results are the same perceptrons of the same
  stages (`Reference/Value.lean`). So both runs end at the reference's stages `val_main_v48` (the node result) and
  `val_main_v29` (the edge result) of the argument arrays, on which the two launch memories agree. No law of
  arithmetic is used beyond reading both sides index by index: the two networks are the same sums of the same
  products, so finiteness of the inputs is never opened.
-/
import proofs.«136190_j64424509440353_1_alg».proof.Proof.KernelIdeal.Run
import proofs.«136190_j64424509440353_1_alg».proof.Proof.KernelIdeal.EdgeValue
import proofs.«136190_j64424509440353_1_alg».proof.Proof.KernelIdeal.NodeValue
import proofs.«136190_j64424509440353_1_alg».proof.Proof.KernelIdeal.Results
import proofs.«136190_j64424509440353_1_alg».proof.Proof.Reference.Value
import proofs.«136190_j64424509440353_1_alg».proof.Proof.Gen.ReferenceIdeal.Run
import proofs.«136190_j64424509440353_1_alg».proof.Proof.Gen.ReferenceIdeal.Read
import proofs.«136190_j64424509440353_1_alg».proof.Defs
import proofs.«136190_j64424509440353_1_alg».proof.Proof.Gen.KernelIdeal
import proofs.«136190_j64424509440353_1_alg».proof.Proof.Gen.ReferenceIdeal
import proofs.«136190_j64424509440353_1_alg».proof.Proof.Gen.Pre_finite_inputs

set_option maxRecDepth 16384

noncomputable section

namespace Cert.KernelIdeal.Algebraic

open Cert.KernelIdeal Cert.KernelIdeal.Gen Cert.KernelIdeal.Run Cert.KernelIdeal.Results
open Idealize.ShloMosaic Idealize.ShloMosaic.TcCoe Idealize.ShloMosaic.ValueIdx Idealize.SL.Sem Cert.Mlp

variable (m : (ℓ : Loc nD τ sig) → Buf (Elt Ideal) ℓ) (ρ : Dev nD → PrngReg)

/-- The edge call's result is the reference's edge result of the launch memory. -/
theorem edge_result_ref (c : Dev nD) :
    EdgeValue.result (edgeEntry m) c
      = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold EdgeValue.result
  rw [edge_input m c, edge_arg m c main_arg4 (by decide), edge_arg m c main_arg6 (by decide), edge_arg m c main_arg8 (by decide),
    edge_bias1 m c, edge_bias2 m c, edge_bias3 m c, biasRow_reshape, biasRow_reshape, biasRow_reshape]
  exact (Cert.ReferenceIdeal.RefValue.edge_eq _ _ _ _ _ _ _ _ _ _).symm

/-- What the second host stretch finds in the edge call's result buffer. -/
theorem edge_exit_result (c : Dev nD) :
    atEdgeExit m c (Proc.devRef .tc main_v18)
      = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (atEdgeExit_arr m c 7).trans ((EdgeValue.array_eq (edgeEntry m) c).trans (edge_result_ref m c))

/-- The node call's result is the reference's node result of the launch memory. -/
theorem node_result_ref (c : Dev nD) :
    NodeValue.result (nodeEntry m) c
      = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  unfold NodeValue.result
  rw [node_input m c, edge_exit_result m c, nodeInput_ref,
    node_arg m c main_arg10 (by decide) (by decide) (by decide), node_arg m c main_arg12 (by decide) (by decide) (by decide),
    node_arg m c main_arg14 (by decide) (by decide) (by decide),
    node_bias1 m c, node_bias2 m c, node_bias3 m c, biasRow_reshape, biasRow_reshape, biasRow_reshape]
  exact (Cert.ReferenceIdeal.RefValue.node_eq _ _ _ _ _ _ _ _ _ _ _ _ _ _ _ _).symm

/-- The kernel's run with both results named: the node result, the edge result, and the arguments as launched. -/
theorem kernel_run : θ_run defs (onTc (τ := τ) (main (F := Ideal))) ⟨m, fun _ => 0, ρ⟩ (fun r => ∀ c : Dev nD,
      r.2.mem ((c.tc : Thread nD τ).loc main_v26) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c.tc : Thread nD τ).loc main_v18) = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
    (h c _ (mem_uc main_v26 (by decide))).trans ((atEnd_node_result m c).trans ((NodeValue.array_eq (nodeEntry m) c).trans (node_result_ref m c))),
    (h c _ (mem_uc main_v18 (by decide))).trans ((atEnd_edge_result m c).trans ((EdgeValue.array_eq (edgeEntry m) c).trans (edge_result_ref m c))),
    (h c _ (mem_uc main_arg0 (by decide))).trans (atEnd_kept m c main_arg0 (by decide) (by decide) (by decide) (by decide)),
    (h c _ (mem_uc main_arg1 (by decide))).trans (atEnd_kept m c main_arg1 (by decide) (by decide) (by decide) (by decide)),
    (h c _ (mem_uc main_arg2 (by decide))).trans (atEnd_kept m c main_arg2 (by decide) (by decide) (by decide) (by decide)),
    (h c _ (mem_uc main_arg3 (by decide))).trans (atEnd_kept m c main_arg3 (by decide) (by decide) (by decide) (by decide)),
    (h c _ (mem_uc main_arg4 (by decide))).trans (atEnd_kept m c main_arg4 (by decide) (by decide) (by decide) (by decide)),
    (h c _ (mem_uc main_arg5 (by decide))).trans (atEnd_kept m c main_arg5 (by decide) (by decide) (by decide) (by decide)),
    (h c _ (mem_uc main_arg6 (by decide))).trans (atEnd_kept m c main_arg6 (by decide) (by decide) (by decide) (by decide)),
    (h c _ (mem_uc main_arg7 (by decide))).trans (atEnd_kept m c main_arg7 (by decide) (by decide) (by decide) (by decide)),
    (h c _ (mem_uc main_arg8 (by decide))).trans (atEnd_kept m c main_arg8 (by decide) (by decide) (by decide) (by decide)),
    (h c _ (mem_uc main_arg9 (by decide))).trans (atEnd_kept m c main_arg9 (by decide) (by decide) (by decide) (by decide)),
    (h c _ (mem_uc main_arg10 (by decide))).trans (atEnd_kept m c main_arg10 (by decide) (by decide) (by decide) (by decide)),
    (h c _ (mem_uc main_arg11 (by decide))).trans (atEnd_kept m c main_arg11 (by decide) (by decide) (by decide) (by decide)),
    (h c _ (mem_uc main_arg12 (by decide))).trans (atEnd_kept m c main_arg12 (by decide) (by decide) (by decide) (by decide)),
    (h c _ (mem_uc main_arg13 (by decide))).trans (atEnd_kept m c main_arg13 (by decide) (by decide) (by decide) (by decide)),
    (h c _ (mem_uc main_arg14 (by decide))).trans (atEnd_kept m c main_arg14 (by decide) (by decide) (by decide) (by decide)),
    (h c _ (mem_uc main_arg15 (by decide))).trans (atEnd_kept m c main_arg15 (by decide) (by decide) (by decide) (by decide))⟩)
    (run_all m ρ)

end Cert.KernelIdeal.Algebraic

namespace Cert.Proof

open Idealize.ShloMosaic Idealize.SL.Sem

/-- From memories that agree on the arguments both programs run, end with equal results and leave the arguments as
    launched: both end at the reference's stages of the (common) argument arrays. -/
theorem algebraic : Cert.algebraic_KernelIdeal_ReferenceIdeal := by
  intro m ρ m' ρ' _ hagree
  refine ⟨_, _, Cert.KernelIdeal.Algebraic.kernel_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15⟩ := hagree c
    refine (Cert.ReferenceIdeal.Read.val_main_v48_eq _ _ _ _ _ _ _ _ _ _ _ _ _ _ _ _).trans ?_
    rw [h0, h1, h2, h3, h4, h5, h6, h7, h8, h9, h10, h11, h12, h13, h14, h15]
  · obtain ⟨h0, h1, h2, h3, h4, h5, h6, h7, h8, h9, -⟩ := hagree c
    refine (Cert.ReferenceIdeal.Read.val_main_v29_eq _ _ _ _ _ _ _ _ _ _).trans ?_
    rw [h0, h1, h2, h3, h4, h5, h6, h7, h8, h9]

end Cert.Proof

end
-- ==== Proof.lean ====
/-
  The certificate of a message-passing layer: an edge network (a three-layer perceptron with ReLU after every layer)
  on each edge's two endpoint feature rows and its own, a scatter-add of the edge messages into their destination
  nodes' buckets, and a node network of the same kind on each node's features beside its bucket. The kernel runs the
  two networks as two pallas_calls, 5000 rows a grid point, with the gathers, the scatter-add and the concatenations
  as host operations around them; the reference is the same layer in plain array operations.
  * The three frames: each program runs to the end from any memory, faults nowhere and leaves its sixteen argument
    arrays as launched. For the kernel, read at the word level and at the extended reals, this is the launch theorem
    for a program of two kernel regions among host stretches (`Proof/Kernel/Run.lean`, `Proof/KernelIdeal/Run.lean`,
    over each call's body in `EdgeBody.lean` / `NodeBody.lean`); for the reference it is its run with the results dropped.
  * `preserves`: the idealized kernel is the kernel's own text read at the extended reals; no rewrite was applied.
  * `algebraic`: at the extended reals both programs end at the same two arrays (`Proof/Algebraic.lean`): a change of
    float format is the identity there, a matrix product into a zero accumulator and the host's `dot_general` are the
    same sum of products, so each call computes on its block of rows what the reference computes on all rows
    (`Proof/Mlp.lean` is the common form), and everything around the calls is the same host operations on both sides.
-/
import proofs.«136190_j64424509440353_1_alg».proof.Defs
import proofs.«136190_j64424509440353_1_alg».proof.Proof.Kernel.Run
import proofs.«136190_j64424509440353_1_alg».proof.Proof.KernelIdeal.Run
import proofs.«136190_j64424509440353_1_alg».proof.Proof.Algebraic
import proofs.«136190_j64424509440353_1_alg».proof.Proof.Gen.Kernel
import proofs.«136190_j64424509440353_1_alg».proof.Proof.Gen.KernelIdeal
import proofs.«136190_j64424509440353_1_alg».proof.Proof.Gen.ReferenceIdeal
import proofs.«136190_j64424509440353_1_alg».proof.Proof.Gen.ReferenceIdeal.Run
import proofs.«136190_j64424509440353_1_alg».proof.Proof.Gen.Pre_finite_inputs
import Idealize.ShloMosaic.Adequacy
import Idealize.ShloMosaic.Init

noncomputable section

namespace Cert.Proof

open Idealize.ShloMosaic Idealize.SL.Sem

/-- The kernel as printed, at the word level. -/
theorem frame_kernel : Cert.frame_Kernel := fun m ρ _ => Cert.Kernel.Run.frame m ρ

/-- The kernel at the extended reals. -/
theorem frame_kernelIdeal : Cert.frame_KernelIdeal := fun m ρ _ => Cert.KernelIdeal.Run.frame m ρ

/-- The reference: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
